-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x64 .f32) (main_arg3 : FVec F S64 .f32) (main_arg4 : FVec F S64x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x256 : Shape := ⟨2, ![5000, 256]⟩
abbrev S5000x64 : Shape := ⟨2, ![5000, 64]⟩
abbrev S3300000x64 : Shape := ⟨2, ![3300000, 64]⟩
abbrev S1x64 : Shape := ⟨2, ![1, 64]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x40, .f32⟩
  | .hbm, ⟨65, _⟩ => ⟨S3300000x1, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x40, .f32⟩
  | .hbm, ⟨76, _⟩ => ⟨S3300000x40, .f32⟩
  | .hbm, ⟨77, _⟩ => ⟨S_, .f32⟩
  | .hbm, ⟨78, _⟩ => ⟨S100000x40, .f32⟩
  | .hbm, ⟨79, _⟩ => ⟨S3300000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x40_S5000x40_1_0_0_1_n_n_wf : DotDims.WF S5000x64 S64x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64x40, .f32⟩
  | 5 => ⟨S40, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x64, .f32⟩
  | 47 => ⟨S3300000x1, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000x64, .f32⟩
  | 57 => ⟨S3300000x64, .f32⟩
  | 58 => ⟨S3300000x64, .f32⟩
  | 59 => ⟨S_, .f32⟩
  | 60 => ⟨S100000x64, .f32⟩
  | 61 => ⟨S3300000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S_, .f32⟩
  | 70 => ⟨S3300000, .f32⟩
  | 71 => ⟨S_, .f32⟩
  | 72 => ⟨S100000, .f32⟩
  | 73 => ⟨S3300000x1, .i32⟩
  | 74 => ⟨S100000, .f32⟩
  | 75 => ⟨S_, .f32⟩
  | 76 => ⟨S100000, .f32⟩
  | 77 => ⟨S100000, .i1⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S3300000, .f32⟩
  | 102 => ⟨S100000x40, .f32⟩
  | 103 => ⟨S3300000x1, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000x40, .f32⟩
  | 113 => ⟨S3300000x40, .f32⟩
  | 114 => ⟨S3300000x40, .f32⟩
  | 115 => ⟨S_, .f32⟩
  | 116 => ⟨S100000x40, .f32⟩
  | 117 => ⟨S3300000x1, .i32⟩
  | 118 => ⟨S100000x40, .f32⟩
  | 119 => ⟨S1x40, .f32⟩
  | 120 => ⟨S100000x40, .f32⟩
  | 121 => ⟨S100000x40, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x256, .f32⟩

abbrev hbmTy0_1 (i : Nat) : BufTy := match i % 128 with
  | 0 => ⟨S100000x40, .f32⟩
  | 1 => ⟨S100000x40, .f32⟩
  | 2 => ⟨S100000x40, .f32⟩
  | 3 => ⟨S_, .f32⟩
  | 4 => ⟨S100000, .f32⟩
  | 5 => ⟨S100000x1, .f32⟩
  | 6 => ⟨S100000x1, .f32⟩
  | 7 => ⟨S100000x40, .f32⟩
  | 8 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x40_S100000x40_1_0_0_1_n_n_wf : DotDims.WF S100000x64 S64x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.Stages.lean ====
/- The host-side chains that the kernel's program and the reference share, each named ONCE as a function of the
   arrays it reads: the source and destination index vectors of the edge list with the self-loops appended, the
   symmetric normalisation coefficients dinv[src] · dinv[dst] with dinv = deg^(-1/2) where deg > 0 and 0 elsewhere, and the
   aggregation "gather the rows at src, scale each by its coefficient, scatter-add into the rows at dst" at widths 64
   and 40. Both programs apply exactly these host operations in exactly this order, so the value proof carries each
   chain as one function and never opens a gather or a scatter. -/
import proofs.«133573_j63677185130713_1_alg».proof.Proof.Gen.ReferenceIdeal
import Idealize.ShloMosaic.PureOps.Ideal

noncomputable section

namespace Cert.Stages

open Idealize.ShloMosaic Idealize.ShloMosaic.TcCoe Idealize.SL.Sem
open Cert.ReferenceIdeal Cert.ReferenceIdeal.Gen

variable {F : FTy → Type} [FloatOps F]

/-- An integer array of shape `S`. -/
abbrev IArr (F : FTy → Type) (S : Shape) : Type := (⟨S, .i32⟩ : BufTy).Contents (Elt F)
/-- A float array of shape `S`. -/
abbrev FArr (F : FTy → Type) (S : Shape) : Type := (⟨S, .f32⟩ : BufTy).Contents (Elt F)

/-- Row 0 of the edge list followed by 0, 1, …, n-1: the source node of every edge and of every self-loop. -/
def srcIdx (e : IArr F S2x3200000) : IArr F S3300000 :=
  concatenate S3300000 0
    [⟨S3200000, shapeCast _ (extractStridedSlice S1x3200000 ![0, 0] e slices_S2x3200000_S1x3200000_0_0) shapeCasts_S1x3200000_S3200000⟩,
     ⟨S100000, iotaInDim S100000 32 0⟩]
    concatenates_S3200000_S100000_S3300000_d0

/-- Row 1 of the edge list followed by 0, 1, …, n-1: the destination node of every edge and of every self-loop. -/
def dstIdx (e : IArr F S2x3200000) : IArr F S3300000 :=
  concatenate S3300000 0
    [⟨S3200000, shapeCast _ (extractStridedSlice S1x3200000 ![1, 0] e slices_S2x3200000_S1x3200000_1_0) shapeCasts_S1x3200000_S3200000⟩,
     ⟨S100000, iotaInDim S100000 32 0⟩]
    concatenates_S3200000_S100000_S3300000_d0

/-- An index vector as the host hands it to a gather: a negative index has n added, and the vector is laid out as
    a column. -/
def wrapIdx (s : IArr F S3300000) : IArr F S3300000x1 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32)))
      s)

/-- The in-degree of every node, self-loop included: ones scatter-added at the destinations. -/
def degOf (dst : IArr F S3300000) : FArr F S100000 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 dst)
    (broadcastInDim S3300000 ![] bcast_S_S3300000 (constant S_ .f32 0x3F800000#32))

/-- deg^(-1/2) where the degree is positive, 0 elsewhere. -/
def degInv (dst : IArr F S3300000) : FArr F S100000 :=
  select (cmpf (F := F) .ogt (degOf dst) (broadcastInDim S100000 ![] bcast_S_S100000 (constant S_ .f32 0x00000000#32)))
    (Host.rsqrt (degOf dst))
    (broadcastInDim S100000 ![] bcast_S_S100000 (id (constant S_ .f32 0x00000000#32)))

/-- The coefficient of every edge: dinv at its source times dinv at its destination. -/
def normOf (src dst : IArr F S3300000) : FArr F S3300000 :=
  mulf (Host.gather gather_S100000_S3300000x1_S3300000_n_0_n_n_0_1_1 (degInv dst) (wrapIdx src))
    (Host.gather gather_S100000_S3300000x1_S3300000_n_0_n_n_0_1_1 (degInv dst) (wrapIdx dst))

/-- One aggregation at width 64: row src[e] of `h`, scaled by the edge's coefficient, added into row dst[e]. -/
def agg64 (nrm : FArr F S3300000) (src dst : IArr F S3300000) (h : FArr F S100000x64) : FArr F S100000x64 :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 dst)
    (mulf
      (broadcastInDim S3300000x64 ![0, 1] bcast_S3300000x1_S3300000x64_0_1
        (broadcastInDim S3300000x1 ![0] bcast_S3300000_S3300000x1_0 nrm))
      (Host.gather gather_S100000x64_S3300000x1_S3300000x64_1_0_n_n_0_1_164 h (wrapIdx src)))

/-- The same aggregation at width 40. -/
def agg40 (nrm : FArr F S3300000) (src dst : IArr F S3300000) (h : FArr F S100000x40) : FArr F S100000x40 :=
  Host.scatterAdd scatter_S100000x40_S3300000x1_S3300000x40_1_0_0_1
    (broadcastInDim S100000x40 ![] bcast_S_S100000x40 (constant S_ .f32 0x00000000#32))
    (broadcastInDim S3300000x1 ![0] bcast_S3300000_S3300000x1_0 dst)
    (mulf
      (broadcastInDim S3300000x40 ![0, 1] bcast_S3300000x1_S3300000x40_0_1
        (broadcastInDim S3300000x1 ![0] bcast_S3300000_S3300000x1_0 nrm))
      (Host.gather gather_S100000x40_S3300000x1_S3300000x40_1_0_n_n_0_1_140 h (wrapIdx src)))

/-- The first layer's dense half: the whole matrix product X · W1. -/
def lin1 (x : FArr F S100000x256) (w : FArr F S256x64) : FArr F S100000x64 :=
  Host.dotGeneral dot_S100000x256_S256x64_S100000x64_1_0_0_1_n_n none x w

end Cert.Stages

end
-- ==== Proof.HostChain.lean ====
/- The kernel program's host stretches, each read once: for ANY buffer contents `Wp` a stretch starts from, what it
   leaves in the buffers later items read, as the shared host chains (Proof/Stages.lean) of what it found; and which
   buffers it leaves alone. Stretch 0 (three pieces, up to the first region) builds the index vectors and the edge
   coefficients from the edge list; stretch 1 (between regions 0 and 1) aggregates region 0's product at width 64 and
   lays the first bias out as a row; stretch 2 (between regions 1 and 2) aggregates region 1's product at width 40 and
   lays the second bias out as a row. -/
import proofs.«133573_j63677185130713_1_alg».proof.Proof.Gen.KernelIdeal.Launch
import proofs.«133573_j63677185130713_1_alg».proof.Proof.Stages
import Idealize.ShloMosaic.Lib.StableHlo.Run

set_option maxRecDepth 16384
set_option maxHeartbeats 1000000

noncomputable section

namespace Cert.KernelIdeal.HostChain

open Cert.KernelIdeal Cert.KernelIdeal.Gen
open Idealize.ShloMosaic Idealize.ShloMosaic.TcCoe Idealize.SL.Sem Idealize.ShloMosaic.StableHlo
open Cert.Stages (IArr FArr srcIdx dstIdx wrapIdx degOf degInv normOf agg64 agg40)

variable {F : FTy → Type} [FloatOps F]
variable (Wp : Valuation τ sig (Elt F))

/-! ## Stretch 0, first piece: the index vectors, the degree test and the inverse square root -/

theorem s0_src : StableHlo.after (hostOps0 : List (HloOp τ sig (Elt F))) Wp (Proc.devRef .tc main_v3)
    = srcIdx (F := F) (Wp (Proc.devRef .tc main_arg1) : IArr F Cert.ReferenceIdeal.S2x3200000) := by
  dsimp only [hostOps0]; after_results; rfl

theorem s0_dst : StableHlo.after (hostOps0 : List (HloOp τ sig (Elt F))) Wp (Proc.devRef .tc main_v6)
    = dstIdx (F := F) (Wp (Proc.devRef .tc main_arg1) : IArr F Cert.ReferenceIdeal.S2x3200000) := by
  dsimp only [hostOps0]; after_results; rfl

theorem s0_pos : StableHlo.after (hostOps0 : List (HloOp τ sig (Elt F))) Wp (Proc.devRef .tc main_v12)
    = cmpf (F := F) .ogt (degOf (F := F) (dstIdx (F := F) (Wp (Proc.devRef .tc main_arg1) : IArr F Cert.ReferenceIdeal.S2x3200000)))
        (broadcastInDim Cert.ReferenceIdeal.S100000 ![] Cert.ReferenceIdeal.Gen.bcast_S_S100000 (constant (F := F) Cert.ReferenceIdeal.S_ .f32 0x00000000#32)) := by
  dsimp only [hostOps0]; after_results; rfl

theorem s0_rsqrt : StableHlo.after (hostOps0 : List (HloOp τ sig (Elt F))) Wp (Proc.devRef .tc main_v13)
    = Host.rsqrt (degOf (F := F) (dstIdx (F := F) (Wp (Proc.devRef .tc main_arg1) : IArr F Cert.ReferenceIdeal.S2x3200000))) := by
  dsimp only [hostOps0]; after_results; rfl

theorem s0_zero : StableHlo.after (hostOps0 : List (HloOp τ sig (Elt F))) Wp (Proc.devRef .tc main_cst_2)
    = constant (F := F) Cert.ReferenceIdeal.S_ .f32 0x00000000#32 := by
  dsimp only [hostOps0]; after_results

theorem s0_keep_arg0 : StableHlo.after (hostOps0 : List (HloOp τ sig (Elt F))) Wp (Proc.devRef .tc main_arg0) = Wp (Proc.devRef .tc main_arg0) := by
  dsimp only [hostOps0]; after_results
theorem s0_keep_arg2 : StableHlo.after (hostOps0 : List (HloOp τ sig (Elt F))) Wp (Proc.devRef .tc main_arg2) = Wp (Proc.devRef .tc main_arg2) := by
  dsimp only [hostOps0]; after_results
theorem s0_keep_arg3 : StableHlo.after (hostOps0 : List (HloOp τ sig (Elt F))) Wp (Proc.devRef .tc main_arg3) = Wp (Proc.devRef .tc main_arg3) := by
  dsimp only [hostOps0]; after_results
theorem s0_keep_arg4 : StableHlo.after (hostOps0 : List (HloOp τ sig (Elt F))) Wp (Proc.devRef .tc main_arg4) = Wp (Proc.devRef .tc main_arg4) := by
  dsimp only [hostOps0]; after_results
theorem s0_keep_arg5 : StableHlo.after (hostOps0 : List (HloOp τ sig (Elt F))) Wp (Proc.devRef .tc main_arg5) = Wp (Proc.devRef .tc main_arg5) := by
  dsimp only [hostOps0]; after_results

/-! ## Stretch 0, second piece: the inverse square root kept where the degree is positive, 0 elsewhere -/

theorem s01_dinv : StableHlo.after (hostOps0_1 : List (HloOp τ sig (Elt F))) Wp (Proc.devRef .tc main_v14)
    = select (Wp (Proc.devRef .tc main_v12)) (Wp (Proc.devRef .tc main_v13) : FArr F Cert.ReferenceIdeal.S100000)
        (broadcastInDim Cert.ReferenceIdeal.S100000 ![] Cert.ReferenceIdeal.Gen.bcast_S_S100000 (id (Wp (Proc.devRef .tc main_cst_2) : FArr F Cert.ReferenceIdeal.S_))) := by
  dsimp only [hostOps0_1]; after_results; rfl

theorem s01_keep_v3 : StableHlo.after (hostOps0_1 : List (HloOp τ sig (Elt F))) Wp (Proc.devRef .tc main_v3) = Wp (Proc.devRef .tc main_v3) := by
  dsimp only [hostOps0_1]; after_results
theorem s01_keep_v6 : StableHlo.after (hostOps0_1 : List (HloOp τ sig (Elt F))) Wp (Proc.devRef .tc main_v6) = Wp (Proc.devRef .tc main_v6) := by
  dsimp only [hostOps0_1]; after_results
theorem s01_keep_arg0 : StableHlo.after (hostOps0_1 : List (HloOp τ sig (Elt F))) Wp (Proc.devRef .tc main_arg0) = Wp (Proc.devRef .tc main_arg0) := by
  dsimp only [hostOps0_1]; after_results
theorem s01_keep_arg2 : StableHlo.after (hostOps0_1 : List (HloOp τ sig (Elt F))) Wp (Proc.devRef .tc main_arg2) = Wp (Proc.devRef .tc main_arg2) := by
  dsimp only [hostOps0_1]; after_results
theorem s01_keep_arg3 : StableHlo.after (hostOps0_1 : List (HloOp τ sig (Elt F))) Wp (Proc.devRef .tc main_arg3) = Wp (Proc.devRef .tc main_arg3) := by
  dsimp only [hostOps0_1]; after_results
theorem s01_keep_arg4 : StableHlo.after (hostOps0_1 : List (HloOp τ sig (Elt F))) Wp (Proc.devRef .tc main_arg4) = Wp (Proc.devRef .tc main_arg4) := by
  dsimp only [hostOps0_1]; after_results
theorem s01_keep_arg5 : StableHlo.after (hostOps0_1 : List (HloOp τ sig (Elt F))) Wp (Proc.devRef .tc main_arg5) = Wp (Proc.devRef .tc main_arg5) := by
  dsimp only [hostOps0_1]; after_results

/-! ## Stretch 0, third piece: the edge coefficients -/

theorem s02_norm : StableHlo.after (hostOps0_2 : List (HloOp τ sig (Elt F))) Wp (Proc.devRef .tc main_v29)
    = mulf (Host.gather Cert.ReferenceIdeal.gather_S100000_S3300000x1_S3300000_n_0_n_n_0_1_1
              (Wp (Proc.devRef .tc main_v14) : FArr F Cert.ReferenceIdeal.S100000)
              (wrapIdx (F := F) (Wp (Proc.devRef .tc main_v3) : IArr F Cert.ReferenceIdeal.S3300000)))
        (Host.gather Cert.ReferenceIdeal.gather_S100000_S3300000x1_S3300000_n_0_n_n_0_1_1
              (Wp (Proc.devRef .tc main_v14) : FArr F Cert.ReferenceIdeal.S100000)
              (wrapIdx (F := F) (Wp (Proc.devRef .tc main_v6) : IArr F Cert.ReferenceIdeal.S3300000))) := by
  dsimp only [hostOps0_2]; after_results; rfl

theorem s02_keep_v3 : StableHlo.after (hostOps0_2 : List (HloOp τ sig (Elt F))) Wp (Proc.devRef .tc main_v3) = Wp (Proc.devRef .tc main_v3) := by
  dsimp only [hostOps0_2]; after_results
theorem s02_keep_v6 : StableHlo.after (hostOps0_2 : List (HloOp τ sig (Elt F))) Wp (Proc.devRef .tc main_v6) = Wp (Proc.devRef .tc main_v6) := by
  dsimp only [hostOps0_2]; after_results
theorem s02_keep_arg0 : StableHlo.after (hostOps0_2 : List (HloOp τ sig (Elt F))) Wp (Proc.devRef .tc main_arg0) = Wp (Proc.devRef .tc main_arg0) := by
  dsimp only [hostOps0_2]; after_results
theorem s02_keep_arg2 : StableHlo.after (hostOps0_2 : List (HloOp τ sig (Elt F))) Wp (Proc.devRef .tc main_arg2) = Wp (Proc.devRef .tc main_arg2) := by
  dsimp only [hostOps0_2]; after_results
theorem s02_keep_arg3 : StableHlo.after (hostOps0_2 : List (HloOp τ sig (Elt F))) Wp (Proc.devRef .tc main_arg3) = Wp (Proc.devRef .tc main_arg3) := by
  dsimp only [hostOps0_2]; after_results
theorem s02_keep_arg4 : StableHlo.after (hostOps0_2 : List (HloOp τ sig (Elt F))) Wp (Proc.devRef .tc main_arg4) = Wp (Proc.devRef .tc main_arg4) := by
  dsimp only [hostOps0_2]; after_results
theorem s02_keep_arg5 : StableHlo.after (hostOps0_2 : List (HloOp τ sig (Elt F))) Wp (Proc.devRef .tc main_arg5) = Wp (Proc.devRef .tc main_arg5) := by
  dsimp only [hostOps0_2]; after_results

/-! ## Stretch 1: the aggregation at width 64, and the first bias as a row -/

theorem s1_agg : StableHlo.after (hostOps1 : List (HloOp τ sig (Elt F))) Wp (Proc.devRef .tc main_v43)
    = agg64 (F := F) (Wp (Proc.devRef .tc main_v29) : FArr F Cert.ReferenceIdeal.S3300000)
        (Wp (Proc.devRef .tc main_v3) : IArr F Cert.ReferenceIdeal.S3300000)
        (Wp (Proc.devRef .tc main_v6) : IArr F Cert.ReferenceIdeal.S3300000)
        (Wp (Proc.devRef .tc main_v30) : FArr F Cert.ReferenceIdeal.S100000x64) := by
  dsimp only [hostOps1]; after_results; rfl

theorem s1_bias : StableHlo.after (hostOps1 : List (HloOp τ sig (Elt F))) Wp (Proc.devRef .tc main_v44)
    = shapeCast S1x64 (Wp (Proc.devRef .tc main_arg3) : FArr F S64) shapeCasts_S64_S1x64 := by
  dsimp only [hostOps1]; after_results; rfl

theorem s1_keep_v3 : StableHlo.after (hostOps1 : List (HloOp τ sig (Elt F))) Wp (Proc.devRef .tc main_v3) = Wp (Proc.devRef .tc main_v3) := by
  dsimp only [hostOps1]; after_results
theorem s1_keep_v6 : StableHlo.after (hostOps1 : List (HloOp τ sig (Elt F))) Wp (Proc.devRef .tc main_v6) = Wp (Proc.devRef .tc main_v6) := by
  dsimp only [hostOps1]; after_results
theorem s1_keep_v29 : StableHlo.after (hostOps1 : List (HloOp τ sig (Elt F))) Wp (Proc.devRef .tc main_v29) = Wp (Proc.devRef .tc main_v29) := by
  dsimp only [hostOps1]; after_results
theorem s1_keep_arg4 : StableHlo.after (hostOps1 : List (HloOp τ sig (Elt F))) Wp (Proc.devRef .tc main_arg4) = Wp (Proc.devRef .tc main_arg4) := by
  dsimp only [hostOps1]; after_results
theorem s1_keep_arg5 : StableHlo.after (hostOps1 : List (HloOp τ sig (Elt F))) Wp (Proc.devRef .tc main_arg5) = Wp (Proc.devRef .tc main_arg5) := by
  dsimp only [hostOps1]; after_results

/-! ## Stretch 2: the aggregation at width 40, and the second bias as a row -/

theorem s2_agg : StableHlo.after (hostOps2 : List (HloOp τ sig (Elt F))) Wp (Proc.devRef .tc main_v58)
    = agg40 (F := F) (Wp (Proc.devRef .tc main_v29) : FArr F Cert.ReferenceIdeal.S3300000)
        (Wp (Proc.devRef .tc main_v3) : IArr F Cert.ReferenceIdeal.S3300000)
        (Wp (Proc.devRef .tc main_v6) : IArr F Cert.ReferenceIdeal.S3300000)
        (Wp (Proc.devRef .tc main_v45) : FArr F Cert.ReferenceIdeal.S100000x40) := by
  dsimp only [hostOps2]; after_results; rfl

theorem s2_bias : StableHlo.after (hostOps2 : List (HloOp τ sig (Elt F))) Wp (Proc.devRef .tc main_v59)
    = shapeCast S1x40 (Wp (Proc.devRef .tc main_arg5) : FArr F S40) shapeCasts_S40_S1x40 := by
  dsimp only [hostOps2]; after_results; rfl

end Cert.KernelIdeal.HostChain

end
-- ==== Proof.Region0.lean ====
/- Region 0 of the kernel's program: X · W1, computed twenty row blocks of 5000 at a time.
   At the exact instance the array the region leaves is the whole matrix product of its two argument arrays:
   entry (r, j) is the sum over k < 256 of X[r, k] · W1[k, j], whichever block row r lies in. -/
import proofs.«133573_j63677185130713_1_alg».proof.Proof.Gen.KernelIdeal.Frame
import proofs.«133573_j63677185130713_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Regions

open Idealize.ShloMosaic Idealize.ShloMosaic.TcCoe Idealize.SL.Sem
open Cert.KernelIdeal Cert.KernelIdeal.Gen

/-- A float array of shape `S` at the exact instance. -/
abbrev Arr (S : Shape) : Type := (⟨S, .f32⟩ : BufTy).Contents (Elt Ideal)

/-- The two zero offsets of a whole-block access, as the constant function. -/
theorem xw_zero_offsets : (![0, 0] : Fin 2 → Nat) = fun _ => 0 := funext fun a => by fin_cases a <;> rfl

/-! ## The host's product at an index -/

/-- The row of the left operand the host's product reads at output index `i` is `i`'s row. -/
theorem xw_host_lhs_row (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x64_S100000x64_1_0_0_1_n_n.lhsBatch by decide), dif_pos (show (0 : Fin Cert.ReferenceIdeal.S100000x256.rank) ∈ Cert.ReferenceIdeal.dot_S100000x256_S256x64_S100000x64_1_0_0_1_n_n.lhsNonContracting by decide)]
  rfl
/-- Its column there is the contraction index. -/
theorem xw_host_lhs_col (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.lhsIdx i q 1).val = (q ⟨0, by decide⟩).val :=
  Cert.ReferenceIdeal.dot_S100000x256_S256x64_S100000x64_1_0_0_1_n_n.lhsIdx_val_of_single rfl i q
/-- The row of the right operand is the contraction index. -/
theorem xw_host_rhs_row (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.rhsIdx i q 0).val = (q ⟨0, by decide⟩).val :=
  Cert.ReferenceIdeal.dot_S100000x256_S256x64_S100000x64_1_0_0_1_n_n.rhsIdx_val_of_single rfl i q
/-- Its column is `i`'s column. -/
theorem xw_host_rhs_col (i : Cert.ReferenceIdeal.S100000x64.Idx) (q : Cert.ReferenceIdeal.dot_S100000x256_S256x64_S100000x64_1_0_0_1_n_n.contr.Idx) :
    (Cert.ReferenceIdeal.dot_S100000x256_S256x64_S100000x64_1_0_0_1_n_n.rhsIdx i q 1).val = (i 1).val := by
  unfold DotDims.rhsIdx
  rw [dif_neg (show ¬(1 : Fin Cert.ReferenceIdeal.S256x64.rank) ∈ Cert.ReferenceIdeal.dot_S100000x256_S256x64_S100000x64_1_0_0_1_n_n.rhsBatch by decide), dif_pos (show (1 : Fin Cert.ReferenceIdeal.S256x64.rank) ∈ Cert.ReferenceIdeal.dot_S100000x256_S256x64_S100000x64_1_0_0_1_n_n.rhsNonContracting by decide)]
  rfl

/-- Entry (r, j) of the host's product of `X` and `W` is the sum over k < 256 of X[r, k] · W[k, j]. -/
theorem xw_host_product_apply (X : Arr Cert.ReferenceIdeal.S100000x256) (W : Arr Cert.ReferenceIdeal.S256x64) (r : Fin 100000) (j : Fin 64) :
    Host.dotGeneral (F := Ideal) (φ₁ := .f32) (φ₂ := .f32) Cert.ReferenceIdeal.dot_S100000x256_S256x64_S100000x64_1_0_0_1_n_n none X W (ValueIdx.ix2 r j)
      = ∑ k : Fin 256, X (ValueIdx.ix2 r k) * W (ValueIdx.ix2 k j) := by
  simp only [Host.dotGeneral]
  rw [Ideal.dotGeneral_apply, ← Equiv.sum_comp (ValueIdx.contrEquiv1 Cert.ReferenceIdeal.dot_S100000x256_S256x64_S100000x64_1_0_0_1_n_n 256 rfl rfl).symm]
  refine Finset.sum_congr rfl fun k _ => ?_
  have hk := ValueIdx.contrEquiv1_symm_val Cert.ReferenceIdeal.dot_S100000x256_S256x64_S100000x64_1_0_0_1_n_n 256 rfl rfl k
  have el : Cert.ReferenceIdeal.dot_S100000x256_S256x64_S100000x64_1_0_0_1_n_n.lhsIdx (ValueIdx.ix2 r j) ((ValueIdx.contrEquiv1 Cert.ReferenceIdeal.dot_S100000x256_S256x64_S100000x64_1_0_0_1_n_n 256 rfl rfl).symm k) = ValueIdx.ix2 r k := funext fun a => Fin.ext (by
    match a with
    | ⟨0, _⟩ => exact xw_host_lhs_row _ _
    | ⟨1, _⟩ => exact (xw_host_lhs_col _ _).trans hk)
  have er : Cert.ReferenceIdeal.dot_S100000x256_S256x64_S100000x64_1_0_0_1_n_n.rhsIdx (ValueIdx.ix2 r j) ((ValueIdx.contrEquiv1 Cert.ReferenceIdeal.dot_S100000x256_S256x64_S100000x64_1_0_0_1_n_n 256 rfl rfl).symm k) = ValueIdx.ix2 k j := funext fun a => Fin.ext (by
    match a with
    | ⟨0, _⟩ => exact (xw_host_rhs_row _ _).trans hk
    | ⟨1, _⟩ => exact xw_host_rhs_col _ _)
  rw [el, er]

/-! ## The kernel's block product at an index -/

/-- The row of the left block the kernel's product reads at output index `i` is `i`'s row. -/
theorem xw_blk_lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- Its column there is the contraction index. -/
theorem xw_blk_lhs_col (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The row of the weights is the contraction index. -/
theorem xw_blk_rhs_row (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- Its column is `i`'s column. -/
theorem xw_blk_rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry (p, j) of the body's payload on blocks `x0` (5000 rows of X) and `x1` (the weights) is the sum over
    k < 256 of x0[p, k] · x1[k, j]: the roundings to bf16 are the identity at the exact instance and the
    accumulator starts at zero. -/
theorem xw_block_product_apply (x0 : Vec Ideal S5000x256 .f32) (x1 : Vec Ideal S256x64 .f32) (p : Fin 5000) (j : Fin 64) :
    k0_pay1 (F := Ideal) x0 x1 (ValueIdx.ix2 p j) = ∑ k : Fin 256, x0 (ValueIdx.ix2 p k) * x1 (ValueIdx.ix2 k j) := by
  unfold k0_pay1
  show FloatOps.matmul dot_S5000x256_S256x64_S5000x64_1_0_0_1_n_n none (truncf (F := Ideal) .bf16 x0 bitsLt_bf16_f32) (truncf (F := Ideal) .bf16 x1 bitsLt_bf16_f32) (constant (F := Ideal) S5000x64 .f32 0x00000000#32) (ValueIdx.ix2 p j) = _
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ValueIdx.ix2 p j) ((ValueIdx.contrEquiv1 dot_S5000x256_S256x64_S5000x64_1_0_0_1_n_n 256 rfl rfl).symm k) = ValueIdx.ix2 p k := funext fun a => Fin.ext (by
    match a with
    | ⟨0, _⟩ => exact xw_blk_lhs_row _ _
    | ⟨1, _⟩ => exact (xw_blk_lhs_col _ _).trans hk)
  have er : dot_S5000x256_S256x64_S5000x64_1_0_0_1_n_n.rhsIdx (ValueIdx.ix2 p j) ((ValueIdx.contrEquiv1 dot_S5000x256_S256x64_S5000x64_1_0_0_1_n_n 256 rfl rfl).symm k) = ValueIdx.ix2 k j := funext fun a => Fin.ext (by
    match a with
    | ⟨0, _⟩ => exact (xw_blk_rhs_row _ _).trans hk
    | ⟨1, _⟩ => exact xw_blk_rhs_col _ _)
  rw [el, er]
  rfl

/-! ## The blocks as rows of the arrays -/

/-- The printed index maps over the grid: at point `t` the X block and the output block are block row `t`, and
    the weights' block is the whole array. -/
theorem xw_block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the X block at point `t` is X[5000·t + p, k]. -/
theorem xw_x_block_apply (V : (c : Dev nD) → (b : Ref sig .tc) → Buf (Elt Ideal) ((c : Thread nD τ).loc b)) (c : Dev nD) (t : Fin cfg0.N)
    (x : S5000x256.Idx) (i : S100000x256.Idx) (h0 : (i 0).val = 5000 * t.val + (x 0).val) (h1 : (i 1).val = (x 1).val) :
    (iblk0 (F := Ideal) V c 0 t : Vec Ideal S5000x256 .f32) x = (V c main_arg0 : S100000x256.Idx → Elt Ideal .f32) i := by
  obtain ⟨e0, e1, -⟩ := xw_block_indices t
  unfold iblk0
  rw [View.read_apply]
  show V c main_arg0 _ = V c main_arg0 _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 256 + 1 * (x 1).val = (i 1).val; rw [e1, h1]; omega

/-- The weights' block at every point is the weights. -/
theorem xw_w_block_apply (V : (c : Dev nD) → (b : Ref sig .tc) → Buf (Elt Ideal) ((c : Thread nD τ).loc b)) (c : Dev nD) (t : Fin cfg0.N)
    (x : S256x64.Idx) (i : S256x64.Idx) (h0 : (i 0).val = (x 0).val) (h1 : (i 1).val = (x 1).val) :
    (iblk0 (F := Ideal) V c 1 t : Vec Ideal S256x64 .f32) x = (V c main_arg2 : S256x64.Idx → Elt Ideal .f32) i := by
  obtain ⟨-, -, e0, e1, -⟩ := xw_block_indices t
  unfold iblk0
  rw [View.read_apply]
  show V c main_arg2 _ = V c main_arg2 _
  congr 1
  funext a
  apply Fin.ext
  match a with
  | ⟨0, _⟩ => show win0_1.index t (0 : Fin 2) * 256 + 1 * (x 0).val = (i 0).val; rw [e0, h0]; omega
  | ⟨1, _⟩ => show win0_1.index t (1 : Fin 2) * 64 + 1 * (x 1).val = (i 1).val; rw [e1, h1]; omega

/-- One entry of one block: if `x0` is rows 5000·T … 5000·T + 4999 of `X` and `x1` is `W`, the body's payload at
    (p, j) is the host's product of `X` and `W` at (5000·T + p, j): both are the sum over k < 256 of
    X[5000·T + p, k] · W[k, j]. -/
theorem xw_block_entry (x0 : Vec Ideal S5000x256 .f32) (x1 : Vec Ideal S256x64 .f32)
    (X : Arr Cert.ReferenceIdeal.S100000x256) (W : Arr Cert.ReferenceIdeal.S256x64) (T : Nat)
    (hx0 : ∀ (x : S5000x256.Idx) (i : S100000x256.Idx), (i 0).val = 5000 * T + (x 0).val → (i 1).val = (x 1).val → x0 x = X i)
    (hx1 : ∀ (x : S256x64.Idx) (i : S256x64.Idx), (i 0).val = (x 0).val → (i 1).val = (x 1).val → x1 x = W i)
    (y : S5000x64.Idx) (i : S100000x64.Idx) (hi0 : (i 0).val = 5000 * T + (y 0).val) (hi1 : (i 1).val = (y 1).val) :
    k0_pay1 (F := Ideal) x0 x1 y
      = Host.dotGeneral (F := Ideal) (φ₁ := .f32) (φ₂ := .f32) Cert.ReferenceIdeal.dot_S100000x256_S256x64_S100000x64_1_0_0_1_n_n none X W i := by
  obtain ⟨p, j, rfl⟩ : ∃ (p : Fin 5000) (j : Fin 64), y = ValueIdx.ix2 p j := ⟨y 0, y 1, ValueIdx.eq_ix2 y⟩
  obtain ⟨r, j', rfl⟩ : ∃ (r : Fin 100000) (j' : Fin 64), i = ValueIdx.ix2 r j' := ⟨i 0, i 1, ValueIdx.eq_ix2 i⟩
  have hr : r.val = 5000 * T + p.val := hi0
  obtain rfl : j' = j := Fin.ext hi1
  rw [xw_block_product_apply, xw_host_product_apply]
  refine Finset.sum_congr rfl fun k _ => ?_
  rw [hx0 (ValueIdx.ix2 p k) (ValueIdx.ix2 r k) hr rfl, hx1 (ValueIdx.ix2 k j') (ValueIdx.ix2 k j') rfl rfl]

/-! ## From the blocks to the array -/

/-- What point `t` writes back is block row `t` of the host's product of the two arrays as the region finds them. -/
theorem xw_flushed_block (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x256_S256x64_S100000x64_1_0_0_1_n_n none
        (V c main_arg0 : Arr Cert.ReferenceIdeal.S100000x256) (V c main_arg2 : Arr Cert.ReferenceIdeal.S256x64)) := by
  show (cfg0.win 2).cut (grid0.coords t) ((dat0 V c).after 2 t) = _
  rw [after0_2]
  unfold out0_2
  rw [View.canon_unit_zero xw_zero_offsets]
  simp only [View.ld_unit_zero (S := S5000x256) xw_zero_offsets, View.ld_unit_zero (S := S256x64) xw_zero_offsets]
  obtain ⟨-, -, -, -, e0, e1⟩ := xw_block_indices t
  funext y
  rw [View.read_apply]
  refine xw_block_entry (iblk0 V c 0 t) (iblk0 V c 1 t) (V c main_arg0) (V c main_arg2) t.val
    (fun x i h0 h1 => xw_x_block_apply V c t x i h0 h1) (fun x i h0 h1 => xw_w_block_apply V c t x i h0 h1) _ _ ?_ ?_
  · show win0_2.index t (0 : Fin 2) * 5000 + 1 * (y 0).val = 5000 * t.val + (y 0).val
    rw [e0]; omega
  · show win0_2.index t (1 : Fin 2) * 64 + 1 * (y 1).val = (y 1).val
    rw [e1]; omega

/-- An index of the output array lies in point `t`'s block iff, on each axis, its coordinate lies in the block's range. -/
theorem xw_mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every index of the output array is written back: row `r` lies in the block of point `r / 5000`. -/
theorem xw_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨-, -, -, -, e0, e1⟩ := xw_block_indices t
  refine ⟨t, flush0_2 t, ?_⟩
  rw [xw_mem_block]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 64 ≤ (i 1).val ∧ (i 1).val < win0_2.index t (1 : Fin 2) * 64 + 64
    rw [e1]; omega

/-- What region 0 leaves in its output array, for any buffer contents `V` at its entry: the host's whole
    matrix product of the two input arrays as the region finds them. -/
theorem region0_value (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S100000x256_S256x64_S100000x64_1_0_0_1_n_n none
          (V c main_arg0 : Arr Cert.ReferenceIdeal.S100000x256) (V c main_arg2 : Arr Cert.ReferenceIdeal.S256x64) := by
  exact (dat0 (F := Ideal) V c).arrAt_eq_of_cover 2 _ (fun t _ => xw_flushed_block V c t) xw_covered

end Cert.Regions

end
-- ==== Proof.Region1.lean ====
/- Region 1 of the kernel's program: relu(A + b1) · W2, twenty row blocks of 5000 at a time, against the
   host's form of the same layer: the bias broadcast along the rows, the maximum with zero, one whole matrix product.
   Entry (r, j) of either is the sum over k < 64 of max(A[r, k] + b1[k], 0) · W2[k, j]. -/
import proofs.«133573_j63677185130713_1_alg».proof.Proof.Gen.KernelIdeal.Frame
import proofs.«133573_j63677185130713_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! ## The layer as the host writes it -/

namespace Cert.Stages

open Idealize.ShloMosaic Idealize.ShloMosaic.TcCoe Idealize.SL.Sem
open Cert.ReferenceIdeal Cert.ReferenceIdeal.Gen

variable {F : FTy → Type} [FloatOps F]

/-- The second layer's dense half on whole arrays: the bias added to every row, the maximum with zero, the
    product with the weights — the host operations of the reference, in its order. -/
def layer2 (a : (⟨S100000x64, .f32⟩ : BufTy).Contents (Elt F)) (b1 : (⟨S64, .f32⟩ : BufTy).Contents (Elt F))
    (w : (⟨S64x40, .f32⟩ : BufTy).Contents (Elt F)) : (⟨S100000x40, .f32⟩ : BufTy).Contents (Elt F) :=
  Host.dotGeneral dot_S100000x64_S64x40_S100000x40_1_0_0_1_n_n none
    (maximumf
      (addf a (broadcastInDim S100000x64 ![0, 1] bcast_S1x64_S100000x64_0_1 (broadcastInDim S1x64 ![1] bcast_S64_S1x64_1 b1)))
      (broadcastInDim S100000x64 ![] bcast_S_S100000x64 (constant S_ .f32 0x00000000#32)))
    w

/-! ## The host's layer at an index -/

open Idealize.ShloMosaic.ValueIdx

/-- The left operand's index of the host's product at output index `i` and contraction index `q`: row `i 0`, -/
theorem layer2_lhs_0 (i : S100000x40.Idx) (q : dot_S100000x64_S64x40_S100000x40_1_0_0_1_n_n.contr.Idx) :
    (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl
/-- column `q`. -/
theorem layer2_lhs_1 (i : S100000x40.Idx) (q : dot_S100000x64_S64x40_S100000x40_1_0_0_1_n_n.contr.Idx) :
    (dot_S100000x64_S64x40_S100000x40_1_0_0_1_n_n.lhsIdx i q 1).val = (q ⟨0, by decide⟩).val :=
  dot_S100000x64_S64x40_S100000x40_1_0_0_1_n_n.lhsIdx_val_of_single rfl i q
/-- The right operand's index: row `q`, -/
theorem layer2_rhs_0 (i : S100000x40.Idx) (q : dot_S100000x64_S64x40_S100000x40_1_0_0_1_n_n.contr.Idx) :
    (dot_S100000x64_S64x40_S100000x40_1_0_0_1_n_n.rhsIdx i q 0).val = (q ⟨0, by decide⟩).val :=
  dot_S100000x64_S64x40_S100000x40_1_0_0_1_n_n.rhsIdx_val_of_single rfl i q
/-- column `i 1`. -/
theorem layer2_rhs_1 (i : S100000x40.Idx) (q : dot_S100000x64_S64x40_S100000x40_1_0_0_1_n_n.contr.Idx) :
    (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl

/-- The bias as the host lays it over the rows: entry (r, k) is `b1[k]`. -/
theorem bias_rows_apply (b1 : (⟨S64, .f32⟩ : BufTy).Contents (Elt Ideal)) (r : Fin 100000) (k : Fin 64) :
    broadcastInDim S100000x64 ![0, 1] bcast_S1x64_S100000x64_0_1 (broadcastInDim S1x64 ![1] bcast_S64_S1x64_1 b1) (ix2 r k) = b1 (ix1 k) := by
  rw [broadcastInDim_apply _ bcast_S1x64_S100000x64_0_1 _ (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])]
  exact broadcastInDim_apply _ bcast_S64_S1x64_1 b1 (ix2 (0 : Fin 1) k) (ix1 k) (fun a => match a with
    | ⟨0, _⟩ => by show k.val = if (64 : Nat) = 1 then 0 else k.val; rw [if_neg (by decide)])

/-- The zero the host lays over the whole array: every entry is the scalar's word. -/
theorem zero_rows_apply (r : Fin 100000) (k : Fin 64) :
    broadcastInDim S100000x64 ![] bcast_S_S100000x64 (constant (F := Ideal) S_ .f32 0x00000000#32) (ix2 r k) = Ideal.ofBits .f32 0x00000000#32 :=
  broadcastInDim_apply _ bcast_S_S100000x64 _ (ix2 r k) ix0 (fun a => a.elim0)

/-- ENTRY (r, j) OF THE HOST'S LAYER: the sum over k < 64 of max(a[r, k] + b1[k], 0) · w[k, j]. -/
theorem layer2_apply (a : (⟨S100000x64, .f32⟩ : BufTy).Contents (Elt Ideal)) (b1 : (⟨S64, .f32⟩ : BufTy).Contents (Elt Ideal))
    (w : (⟨S64x40, .f32⟩ : BufTy).Contents (Elt Ideal)) (r : Fin 100000) (j : Fin 40) :
    layer2 (F := Ideal) a b1 w (ix2 r j)
      = ∑ k : Fin 64, max (a (ix2 r k) + b1 (ix1 k)) (Ideal.ofBits .f32 0x00000000#32) * w (ix2 k j) := by
  unfold layer2
  simp only [Host.dotGeneral]
  rw [Ideal.dotGeneral_apply, ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx (ix2 r j) ((contrEquiv1 dot_S100000x64_S64x40_S100000x40_1_0_0_1_n_n 64 rfl rfl).symm k) = ix2 r k := funext fun d => Fin.ext (by
    match d with
    | ⟨0, _⟩ => exact layer2_lhs_0 _ _
    | ⟨1, _⟩ => exact (layer2_lhs_1 _ _).trans hk)
  have er : dot_S100000x64_S64x40_S100000x40_1_0_0_1_n_n.rhsIdx (ix2 r j) ((contrEquiv1 dot_S100000x64_S64x40_S100000x40_1_0_0_1_n_n 64 rfl rfl).symm k) = ix2 k j := funext fun d => Fin.ext (by
    match d with
    | ⟨0, _⟩ => exact (layer2_rhs_0 _ _).trans hk
    | ⟨1, _⟩ => exact layer2_rhs_1 _ _)
  rw [el, er, maximumf_apply, addf_apply, bias_rows_apply, zero_rows_apply]

end Cert.Stages

/-! ## The region's array -/

namespace Cert.Regions

open Idealize.ShloMosaic Idealize.ShloMosaic.TcCoe Idealize.SL.Sem
open Cert.KernelIdeal Cert.KernelIdeal.Gen

/-- A float array of shape `S` at the exact instance. -/
abbrev Arr1 (S : Shape) : Type := (⟨S, .f32⟩ : BufTy).Contents (Elt Ideal)

open Idealize.ShloMosaic.ValueIdx

/-! ## The body's arithmetic at an index -/

/-- The left operand's index of the block product at output index `i` and contraction index `q`: row `i 0`, -/
theorem blockdot_lhs_0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- column `q`. -/
theorem blockdot_lhs_1 (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
/-- The right operand's index: row `q`, -/
theorem blockdot_rhs_0 (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
/-- column `i 1`. -/
theorem blockdot_rhs_1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The bias row laid over the 5000 rows of a block: entry (p, k) is the row's entry (0, k). -/
theorem bias_block_apply (x1 : FVec Ideal S1x64 .f32) (p : Fin 5000) (k : Fin 64) :
    broadcastTo S5000x64 x1 broadcasts_S1x64_S5000x64 (ix2 p k) = x1 (ix2 (0 : Fin 1) k) :=
  broadcastTo_apply x1 broadcasts_S1x64_S5000x64 (ix2 p k) (ix2 (0 : Fin 1) k) (fun a => match a with
    | ⟨0, _⟩ => by show 0 = if (1 : Nat) = 1 then 0 else p.val; rw [if_pos rfl]
    | ⟨1, _⟩ => by show k.val = if (64 : Nat) = 1 then 0 else k.val; rw [if_neg (by decide)])

/-- ENTRY (p, j) OF THE BODY'S RESULT on a block `x0` of rows, the bias row `x1` and the weights `x2`:
    the sum over k < 64 of max(x0[p, k] + x1[0, k], 0) · x2[k, j]. -/
theorem body_apply (x0 : FVec Ideal S5000x64 .f32) (x1 : FVec Ideal S1x64 .f32) (x2 : FVec Ideal S64x40 .f32) (p : Fin 5000) (j : Fin 40) :
    k1_pay1 (F := Ideal) x0 x1 x2 (ix2 p j)
      = ∑ k : Fin 64, max (x0 (ix2 p k) + x1 (ix2 (0 : Fin 1) k)) (Ideal.ofBits .f32 0x00000000#32) * x2 (ix2 k j) := by
  unfold k1_pay1
  simp only [matmul, shapeCast_self]
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p j) ((contrEquiv1 dot_S5000x64_S64x40_S5000x40_1_0_0_1_n_n 64 rfl rfl).symm k) = ix2 p k := funext fun d => Fin.ext (by
    match d with
    | ⟨0, _⟩ => exact blockdot_lhs_0 _ _
    | ⟨1, _⟩ => exact (blockdot_lhs_1 _ _).trans hk)
  have er : dot_S5000x64_S64x40_S5000x40_1_0_0_1_n_n.rhsIdx (ix2 p j) ((contrEquiv1 dot_S5000x64_S64x40_S5000x40_1_0_0_1_n_n 64 rfl rfl).symm k) = ix2 k j := funext fun d => Fin.ext (by
    match d with
    | ⟨0, _⟩ => exact (blockdot_rhs_0 _ _).trans hk
    | ⟨1, _⟩ => exact blockdot_rhs_1 _ _)
  rw [el, er, truncf_apply, truncf_apply, maximumf_apply, addf_apply, bias_block_apply, broadcast_apply]
  rfl

/-! ## From the blocks to the array -/

/-- The offset of a whole-buffer access. -/
theorem zero_off : (![0, 0] : Fin 2 → Nat) = fun _ => 0 := funext fun a => by fin_cases a <;> rfl

/-- The index maps over the twenty points: the rows window and the output window sit on the same block of rows and on
    column block 0; the bias row and the weights are block (0, 0) at every point. -/
theorem block_index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 19 ∧ win1_3.index t (1 : Fin 2) = 0 :=
  (by decide +kernel : ∀ t : Fin grid1.N, _)

/-- Every block of 5000 rows is some point's. -/
theorem block_index_onto : ∀ q : Fin 20, ∃ t : Fin cfg1.N, win1_3.index t = ![q.val, 0] :=
  (by decide +kernel : ∀ q : Fin 20, ∃ t : Fin grid1.N, win1_3.index t = ![q.val, 0])

/-- ONE POINT, over any three blocks: if `x0` is rows 5000·n … 5000·n + 4999 of `A`, `x1` the bias `b1` as one row and
    `x2` the weights `W`, the body's result at (p, j) is the host's layer at (5000·n + p, j). -/
theorem point_eq (A : Arr1 S100000x64) (b1 : Arr1 S64) (W : Arr1 S64x40)
    (x0 : FVec Ideal S5000x64 .f32) (x1 : FVec Ideal S1x64 .f32) (x2 : FVec Ideal S64x40 .f32) (n : Nat)
    (h0 : ∀ (p : Fin 5000) (k : Fin 64) (r : Fin 100000), r.val = n * 5000 + p.val → x0 (ix2 p k) = A (ix2 r k))
    (h1 : ∀ k : Fin 64, x1 (ix2 (0 : Fin 1) k) = b1 (ix1 k))
    (h2 : ∀ (k : Fin 64) (j : Fin 40), x2 (ix2 k j) = W (ix2 k j))
    (p : Fin 5000) (j : Fin 40) (r : Fin 100000) (hr : r.val = n * 5000 + p.val) :
    k1_pay1 (F := Ideal) x0 x1 x2 (ix2 p j) = Cert.Stages.layer2 (F := Ideal) A b1 W (ix2 r j) := by
  rw [body_apply, Cert.Stages.layer2_apply]
  refine Finset.sum_congr rfl fun k _ => ?_
  rw [h0 p k r hr, h1 k, h2 k j]

/-- WHAT POINT `t` WRITES BACK is block `t` of the host's layer of the arrays as the region finds them. -/
theorem flushed_eq (V : (c : Dev nD) → (b : Ref sig .tc) → Buf (Elt Ideal) ((c : Thread nD τ).loc b)) (c : Dev nD)
    (b1 : Arr1 S64) (hb : (V c main_v44 : Arr1 S1x64) = shapeCast S1x64 b1 shapeCasts_S64_S1x64) (t : Fin cfg1.N) :
    (dat1 (F := Ideal) V c).flushed 3 t
      = ((cfg1.win 3).blk t).view.read (Elt Ideal)
          (Cert.Stages.layer2 (F := Ideal) (V c main_v43 : Arr1 S100000x64) b1 (V c main_arg4 : Arr1 S64x40)) := by
  show (cfg1.win 3).cut (grid1.coords t) ((dat1 V c).after 3 t) = _
  rw [after1_3]
  unfold out1_3
  rw [View.canon_unit_zero zero_off]
  simp only [View.ld_unit_zero (S := S5000x64) zero_off, View.ld_unit_zero (S := S1x64) zero_off, View.ld_unit_zero (S := S64x40) zero_off]
  obtain ⟨e0, e1, e2, e3, e4, e5, e6, e7⟩ := block_index_facts t
  refine funext fun (y : S5000x40.Idx) => ?_
  obtain ⟨p, j, rfl⟩ : ∃ (p : Fin 5000) (j : Fin 40), y = ix2 p j := ⟨y 0, y 1, eq_ix2 y⟩
  have hlt : win1_3.index t (0 : Fin 2) * 5000 + p.val < 100000 := by have := p.isLt; omega
  have hemb : ((cfg1.win 3).blk t).view.emb (ix2 p j) = (ix2 (⟨win1_3.index t (0 : Fin 2) * 5000 + p.val, hlt⟩ : Fin 100000) j : S100000x40.Idx) :=
    funext fun a => Fin.ext (by
      match a with
      | ⟨0, _⟩ => show win1_3.index t (0 : Fin 2) * 5000 + 1 * p.val = win1_3.index t (0 : Fin 2) * 5000 + p.val; omega
      | ⟨1, _⟩ => show win1_3.index t (1 : Fin 2) * 40 + 1 * j.val = j.val; omega)
  show k1_pay1 (F := Ideal) (iblk1 V c 0 t) (iblk1 V c 1 t) (iblk1 V c 2 t) (ix2 p j)
    = Cert.Stages.layer2 (F := Ideal) (V c main_v43 : Arr1 S100000x64) b1 (V c main_arg4 : Arr1 S64x40) (((cfg1.win 3).blk t).view.emb (ix2 p j))
  rw [hemb]
  refine point_eq (V c main_v43) b1 (V c main_arg4) (iblk1 V c 0 t) (iblk1 V c 1 t) (iblk1 V c 2 t) (win1_3.index t (0 : Fin 2)) ?_ ?_ ?_ p j _ rfl
  · intro p k r hr
    show V c main_v43 (((cfg1.win 0).blk t).view.emb (ix2 p k)) = V c main_v43 (ix2 r k)
    refine congrArg _ (funext fun a => Fin.ext ?_)
    match a with
    | ⟨0, _⟩ => show win1_0.index t (0 : Fin 2) * 5000 + 1 * p.val = r.val; omega
    | ⟨1, _⟩ => show win1_0.index t (1 : Fin 2) * 64 + 1 * k.val = k.val; omega
  · intro k
    show V c main_v44 (((cfg1.win 1).blk t).view.emb (ix2 (0 : Fin 1) k)) = b1 (ix1 k)
    refine (congrFun hb _).trans (shapeCast_apply b1 shapeCasts_S64_S1x64 _ (ix1 k) ?_)
    rw [Shape.rowMajor_val_one, Shape.rowMajor_val_two]
    show k.val = (win1_1.index t (0 : Fin 2) * 1 + 1 * 0) * 64 + (win1_1.index t (1 : Fin 2) * 64 + 1 * k.val)
    omega
  · intro k j
    show V c main_arg4 (((cfg1.win 2).blk t).view.emb (ix2 k j)) = V c main_arg4 (ix2 k j)
    refine congrArg _ (funext fun a => Fin.ext ?_)
    match a with
    | ⟨0, _⟩ => show win1_2.index t (0 : Fin 2) * 64 + 1 * k.val = k.val; omega
    | ⟨1, _⟩ => show win1_2.index t (1 : Fin 2) * 40 + 1 * j.val = j.val; omega

/-- An index of the array is in point `t`'s block iff each coordinate is in the block's range on its axis. -/
theorem mem_block (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v45).slice (win1_3.rect t)).set ↔ _
  rw [View.set_slice_whole, Rect.mem_set_unit]
  exact Iff.rfl

/-- Row r of the array lies in the block of point r / 5000. -/
theorem rows_covered (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ := block_index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 40 ≤ (i 1).val ∧ (i 1).val < win1_3.index t (1 : Fin 2) * 40 + 40; omega

/-- What region 1 leaves in its output array, for any buffer contents `V` at its entry whose bias window holds
    the bias vector `b1` laid out as one row: the host's layer of the aggregated array, `b1` and the weights. -/
theorem region1_value (V : (c : Dev nD) → (b : Ref sig .tc) → Buf (Elt Ideal) ((c : Thread nD τ).loc b)) (c : Dev nD)
    (b1 : Arr1 S64) (hb : (V c main_v44 : Arr1 S1x64) = shapeCast S1x64 b1 shapeCasts_S64_S1x64) :
    (dat1 (F := Ideal) V c).arrAt 3 cfg1.N
      = Cert.Stages.layer2 (F := Ideal) (V c main_v43 : Arr1 Cert.ReferenceIdeal.S100000x64) (b1 : Arr1 Cert.ReferenceIdeal.S64)
          (V c main_arg4 : Arr1 Cert.ReferenceIdeal.S64x40) := by
  exact (dat1 (F := Ideal) V c).arrAt_eq_of_cover 3 _ (fun t _ => flushed_eq V c b1 hb t) rows_covered

end Cert.Regions

end
-- ==== Proof.Region2.lean ====
/- Region 2 of the kernel's program: the log-softmax of A + b2 along each row, twenty row blocks of 5000 at a
   time, against the host's log_softmax of the same sum. With h = A + b2 and M the row maximum, entry (r, j) of either
   is (h[r, j] - M[r]) - log (sum over j' < 40 of exp (h[r, j'] - M[r])). The host takes one more maximum, of
   -inf and M, which changes nothing on the extended reals. -/
import proofs.«133573_j63677185130713_1_alg».proof.Proof.Gen.KernelIdeal.Frame
import proofs.«133573_j63677185130713_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! ## The row log-softmax as the host writes it -/

namespace Cert.Stages

open Idealize.ShloMosaic Idealize.ShloMosaic.TcCoe Idealize.SL.Sem
open Cert.ReferenceIdeal Cert.ReferenceIdeal.Gen

variable {F : FTy → Type} [FloatOps F]

/-- The bias added to every row. -/
def biasRows (a : (⟨S100000x40, .f32⟩ : BufTy).Contents (Elt F)) (b2 : (⟨S40, .f32⟩ : BufTy).Contents (Elt F)) :
    (⟨S100000x40, .f32⟩ : BufTy).Contents (Elt F) :=
  addf a (broadcastInDim S100000x40 ![0, 1] bcast_S1x40_S100000x40_0_1 (broadcastInDim S1x40 ![1] bcast_S40_S1x40_1 b2))

/-- Each row shifted by its maximum (the host's maximum of -inf and the row's reduce-maximum). -/
def lsmShift (h : (⟨S100000x40, .f32⟩ : BufTy).Contents (Elt F)) : (⟨S100000x40, .f32⟩ : BufTy).Contents (Elt F) :=
  subf h (broadcastInDim S100000x40 ![0, 1] bcast_S100000x1_S100000x40_0_1
    (broadcastInDim S100000x1 ![0] bcast_S100000_S100000x1_0
      (maximumf (broadcastInDim S100000 ![] bcast_S_S100000 (constant S_ .f32 0xFF800000#32))
        (Host.reduce FloatOps.maximumf h (constant S_ .f32 0xFF800000#32) reducesTo_S100000x40_S100000_d1 h_S_))))

/-- The shifted rows less the logarithm of their exponentials' row sums. -/
def lsmOut (z : (⟨S100000x40, .f32⟩ : BufTy).Contents (Elt F)) : (⟨S100000x40, .f32⟩ : BufTy).Contents (Elt F) :=
  subf z (broadcastInDim S100000x40 ![0, 1] bcast_S100000x1_S100000x40_0_1
    (Host.log (broadcastInDim S100000x1 ![0] bcast_S100000_S100000x1_0
      (Host.reduceAdd (Host.exp z) (constant S_ .f32 0x00000000#32) reducesTo_S100000x40_S100000_d1 h_S_))))

/-- The host's log_softmax of the aggregated array plus the bias. -/
def lsm (a : (⟨S100000x40, .f32⟩ : BufTy).Contents (Elt F)) (b2 : (⟨S40, .f32⟩ : BufTy).Contents (Elt F)) :
    (⟨S100000x40, .f32⟩ : BufTy).Contents (Elt F) :=
  lsmOut (lsmShift (biasRows a b2))

end Cert.Stages

/-! ## The row log-softmax at an index -/

namespace Cert.Stages

open Idealize.ShloMosaic Idealize.ShloMosaic.ValueIdx

/-- The maximum of a row of forty extended reals, folded from the value the word of minus infinity denotes. -/
def lsm_rowMax (h : Fin 40 → EReal) : EReal :=
  (Finset.univ : Finset (Fin 40)).fold max (Ideal.ofBits .f32 0xFF800000#32) h

/-- Entry `q` of the log-softmax of a row `h`: `h q` less the row maximum, less the logarithm of the sum of the
    exponentials of the row's entries less the row maximum. -/
def lsm_row (h : Fin 40 → EReal) (q : Fin 40) : EReal :=
  (h q - lsm_rowMax h) - Ideal.log (∑ k : Fin 40, Ideal.exp (h k - lsm_rowMax h))

/-- The fold of a maximum is at least the value it starts from, so one more maximum with that value changes nothing. -/
theorem lsm_max_start (h : Fin 40 → EReal) : max (Ideal.ofBits .f32 0xFF800000#32) (lsm_rowMax h) = lsm_rowMax h :=
  max_eq_right ((Finset.le_fold_max _).mpr (Or.inl le_rfl))

end Cert.Stages

/-! ## The host's log_softmax at an index -/

namespace Cert.Stages

open Idealize.ShloMosaic Idealize.ShloMosaic.TcCoe Idealize.SL.Sem Idealize.ShloMosaic.ValueIdx
open Cert.ReferenceIdeal Cert.ReferenceIdeal.Gen

/-- The host's exponential at an index is the exponential of the entry. -/
theorem lsm_hostExp_apply {s : Shape} (x : FVec Ideal s .f32) (i : s.Idx) : Host.exp x i = Ideal.exp (x i) := rfl

/-- The host's logarithm at an index is the logarithm of the entry. -/
theorem lsm_hostLog_apply {s : Shape} (x : FVec Ideal s .f32) (i : s.Idx) : Host.log x i = Ideal.log (x i) := rfl

/-- The reference's row reduction drops axis 1 of `[100000, 40]`. -/
theorem lsm_reduces_rows : S100000x40.Reduces [1] S100000 := by decide

/-- The array plus the bias rows at `(r, k)`: the array's entry plus the bias vector's entry `k`. -/
theorem lsm_biasRows_apply (a : (⟨S100000x40, .f32⟩ : BufTy).Contents (Elt Ideal)) (b2 : (⟨S40, .f32⟩ : BufTy).Contents (Elt Ideal))
    (r : Fin 100000) (k : Fin 40) : biasRows (F := Ideal) a b2 (ix2 r k) = a (ix2 r k) + b2 (ix1 k) := by
  unfold biasRows
  rw [addf_apply]
  refine congrArg (a (ix2 r k) + ·) ?_
  refine (broadcastInDim_apply _ bcast_S1x40_S100000x40_0_1 _ (ix2 r k) (ix2 (0 : Fin 1) k) (fun ax => match ax with
    | ⟨0, _⟩ => by show 0 = if (1 : Nat) = 1 then 0 else r.val; rw [if_pos rfl]
    | ⟨1, _⟩ => by show k.val = if (40 : Nat) = 1 then 0 else k.val; rw [if_neg (by decide)])).trans ?_
  exact broadcastInDim_apply _ bcast_S40_S1x40_1 b2 (ix2 (0 : Fin 1) k) (ix1 k) (fun ax => match ax with
    | ⟨0, _⟩ => by show k.val = if (40 : Nat) = 1 then 0 else k.val; rw [if_neg (by decide)])

/-- A vector `[100000]` made a column and broadcast over forty columns reads, at `(r, k)`, the vector at `r`. -/
theorem lsm_colBroadcast_apply (v : (⟨S100000, .f32⟩ : BufTy).Contents (Elt Ideal)) (r : Fin 100000) (k : Fin 40) :
    broadcastInDim S100000x40 ![0, 1] bcast_S100000x1_S100000x40_0_1
      (broadcastInDim S100000x1 ![0] bcast_S100000_S100000x1_0 v) (ix2 r k) = v (ix1 r) := by
  refine (broadcastInDim_apply _ bcast_S100000x1_S100000x40_0_1 _ (ix2 r k) (ix2 r (0 : Fin 1)) (fun ax => match ax with
    | ⟨0, _⟩ => by show r.val = if (100000 : Nat) = 1 then 0 else r.val; rw [if_neg (by decide)]
    | ⟨1, _⟩ => by show 0 = if (1 : Nat) = 1 then 0 else k.val; rw [if_pos rfl])).trans ?_
  exact broadcastInDim_apply _ bcast_S100000_S100000x1_0 v (ix2 r (0 : Fin 1)) (ix1 r) (fun ax => match ax with
    | ⟨0, _⟩ => by show r.val = if (100000 : Nat) = 1 then 0 else r.val; rw [if_neg (by decide)])

/-- The logarithm of a column made from a vector `[100000]`, broadcast over forty columns, reads at `(r, k)` the
    logarithm of the vector at `r`. -/
theorem lsm_colLogBroadcast_apply (v : (⟨S100000, .f32⟩ : BufTy).Contents (Elt Ideal)) (r : Fin 100000) (k : Fin 40) :
    broadcastInDim S100000x40 ![0, 1] bcast_S100000x1_S100000x40_0_1
      (Host.log (F := Ideal) (φ := .f32) (broadcastInDim S100000x1 ![0] bcast_S100000_S100000x1_0 v)) (ix2 r k) = Ideal.log (v (ix1 r)) := by
  refine (broadcastInDim_apply _ bcast_S100000x1_S100000x40_0_1 _ (ix2 r k) (ix2 r (0 : Fin 1)) (fun ax => match ax with
    | ⟨0, _⟩ => by show r.val = if (100000 : Nat) = 1 then 0 else r.val; rw [if_neg (by decide)]
    | ⟨1, _⟩ => by show 0 = if (1 : Nat) = 1 then 0 else k.val; rw [if_pos rfl])).trans ?_
  rw [lsm_hostLog_apply]
  refine congrArg Ideal.log ?_
  exact broadcastInDim_apply _ bcast_S100000_S100000x1_0 v (ix2 r (0 : Fin 1)) (ix1 r) (fun ax => match ax with
    | ⟨0, _⟩ => by show r.val = if (100000 : Nat) = 1 then 0 else r.val; rw [if_neg (by decide)])

/-- The host's maximum-reduction along a row is the row's maximum. -/
theorem lsm_host_rowMax (h : (⟨S100000x40, .f32⟩ : BufTy).Contents (Elt Ideal)) (r : Fin 100000) :
    Host.reduce FloatOps.maximumf h (constant (F := Ideal) S_ .f32 0xFF800000#32) reducesTo_S100000x40_S100000_d1 h_S_ (ix1 r)
      = lsm_rowMax (fun k => h (ix2 r k)) := by
  refine (Host.reduce_eq_fold_single (α := EReal) (s := S100000x40) (t := S100000) (a := 1) (u := S_)
    (FloatOps.maximumf (F := Ideal) (φ := .f32)) h (constant (F := Ideal) S_ .f32 0xFF800000#32)
    reducesTo_S100000x40_S100000_d1 lsm_reduces_rows h_S_ (ix1 r)).trans ?_
  unfold lsm_rowMax
  refine Finset.fold_congr fun k _ => ?_
  exact congrArg h (funext fun a => Fin.ext (by match a with | ⟨0, _⟩ => rfl | ⟨1, _⟩ => rfl))

/-- The host's sum-reduction along a row, from zero, is the sum over the row. -/
theorem lsm_host_rowSum (y : (⟨S100000x40, .f32⟩ : BufTy).Contents (Elt Ideal)) (r : Fin 100000) :
    Host.reduceAdd (F := Ideal) y (constant (F := Ideal) S_ .f32 0x00000000#32) reducesTo_S100000x40_S100000_d1 h_S_ (ix1 r)
      = ∑ k : Fin 40, y (ix2 r k) := by
  simp only [Host.reduceAdd, Ideal.hostReduceAdd_def]
  rw [Ideal.hostReduceAdd_single reducesTo_S100000x40_S100000_d1 lsm_reduces_rows]
  rw [constant_apply, Ideal.ofBits_zero_f32, zero_add]
  refine Finset.sum_congr rfl fun k _ => ?_
  exact congrArg y (funext fun a => Fin.ext (by match a with | ⟨0, _⟩ => rfl | ⟨1, _⟩ => rfl))

/-- The rows less their maxima at `(r, k)`: the entry less the maximum of row `r`. -/
theorem lsmShift_apply (h : (⟨S100000x40, .f32⟩ : BufTy).Contents (Elt Ideal)) (r : Fin 100000) (k : Fin 40) :
    lsmShift (F := Ideal) h (ix2 r k) = h (ix2 r k) - lsm_rowMax (fun k' => h (ix2 r k')) := by
  unfold lsmShift
  rw [subf_apply, lsm_colBroadcast_apply, maximumf_apply, lsm_host_rowMax]
  refine congrArg (h (ix2 r k) - ·) ?_
  exact (congrArg (max · _) (broadcastInDim_apply _ bcast_S_S100000 _ (ix1 r) ix0 (fun ax => ax.elim0))).trans
    (lsm_max_start _)

/-- The shifted rows less the logarithm of their exponentials' sums at `(r, q)`. -/
theorem lsmOut_apply (z : (⟨S100000x40, .f32⟩ : BufTy).Contents (Elt Ideal)) (r : Fin 100000) (q : Fin 40) :
    lsmOut (F := Ideal) z (ix2 r q) = z (ix2 r q) - Ideal.log (∑ k : Fin 40, Ideal.exp (z (ix2 r k))) := by
  unfold lsmOut
  rw [subf_apply, lsm_colLogBroadcast_apply, lsm_host_rowSum]
  rfl

/-- The host's log_softmax of the array plus the bias at `(r, q)`: the log-softmax of row `r` of the sum, at `q`. -/
theorem lsm_apply (a : (⟨S100000x40, .f32⟩ : BufTy).Contents (Elt Ideal)) (b2 : (⟨S40, .f32⟩ : BufTy).Contents (Elt Ideal))
    (r : Fin 100000) (q : Fin 40) :
    lsm (F := Ideal) a b2 (ix2 r q) = lsm_row (fun k => a (ix2 r k) + b2 (ix1 k)) q := by
  unfold lsm
  rw [lsmOut_apply]
  simp only [lsmShift_apply, lsm_biasRows_apply]
  rfl

end Cert.Stages

/-! ## The keepdims column forms read at an index -/

namespace Cert.Regions

open Idealize.ShloMosaic Idealize.ShloMosaic.ValueIdx

/-- A vector `[a]` cast to a column `[a, 1]` reads, at `(p, u)`, the vector at `p`. -/
theorem lsm_shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at `(p, 0)`. -/
theorem lsm_broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Regions

/-! ## The kernel's two row reductions at a row of a block -/

namespace Cert.Regions

open Idealize.ShloMosaic Idealize.ShloMosaic.TcCoe Idealize.SL.Sem Idealize.ShloMosaic.ValueIdx
open Cert.KernelIdeal Cert.KernelIdeal.Gen Cert.Stages

/-- The kernel's maximum-reduction along a row of a block is the row's maximum. -/
theorem lsm_block_rowMax (y : FVec Ideal S5000x40 .f32) (hφ : FKind.Formats .f32)
    (hacc : (0xFF800000#32 : BitVec 32) = FKind.maximumf.neutral .f32 hφ) (p : Fin 5000) :
    multiReduction .maximumf [1] S5000 y 0xFF800000#32 reduces_S5000x40_S5000 hφ hacc (ix1 p)
      = lsm_rowMax (fun k => y (ix2 p k)) := by
  refine (Ideal.multiReduction_maximumf_single y _ reduces_S5000x40_S5000 hφ hacc (ix1 p)).trans ?_
  unfold lsm_rowMax
  show (Finset.univ : Finset (Fin 40)).fold max (Ideal.ofBits .f32 0xFF800000#32)
      (y ∘ reduces_S5000x40_S5000.lift (ix1 p)) = _
  refine Finset.fold_congr fun k _ => ?_
  exact congrArg y (funext fun a => Fin.ext (by match a with | ⟨0, _⟩ => rfl | ⟨1, _⟩ => rfl))

/-- The kernel's sum-reduction along a row of a block is the sum over the row. -/
theorem lsm_block_rowSum (y : FVec Ideal S5000x40 .f32) (hφ : FKind.Formats .f32)
    (hacc : (0x00000000#32 : BitVec 32) = FKind.add.neutral .f32 hφ) (p : Fin 5000) :
    multiReduction .add [1] S5000 y 0x00000000#32 reduces_S5000x40_S5000 hφ hacc (ix1 p)
      = ∑ k : Fin 40, y (ix2 p k) := by
  refine (Ideal.multiReduction_add_single y _ reduces_S5000x40_S5000 hφ hacc (ix1 p)).trans ?_
  show ∑ k : Fin 40, y (reduces_S5000x40_S5000.lift (ix1 p) k) = _
  refine Finset.sum_congr rfl fun k _ => ?_
  exact congrArg y (funext fun a => Fin.ext (by match a with | ⟨0, _⟩ => rfl | ⟨1, _⟩ => rfl))

end Cert.Regions

/-! ## The kernel's payload at an index of a block -/

namespace Cert.Regions

open Idealize.ShloMosaic Idealize.ShloMosaic.TcCoe Idealize.SL.Sem Idealize.ShloMosaic.ValueIdx
open Cert.KernelIdeal Cert.KernelIdeal.Gen Cert.Stages

/-- A block less its row maxima, the maxima cast to a column and broadcast back: at `(p, k)` the entry less the
    maximum of row `p`. -/
theorem lsm_block_shift_apply (y : FVec Ideal S5000x40 .f32) (hφ : FKind.Formats .f32)
    (hm : (0xFF800000#32 : BitVec 32) = FKind.maximumf.neutral .f32 hφ) (p : Fin 5000) (k : Fin 40) :
    subf y (broadcastTo S5000x40 (shapeCast S5000x1
        (multiReduction .maximumf [1] S5000 y 0xFF800000#32 reduces_S5000x40_S5000 hφ hm) shapeCasts_S5000_S5000x1)
        broadcasts_S5000x1_S5000x40) (ix2 p k)
      = y (ix2 p k) - lsm_rowMax (fun k' => y (ix2 p k')) := by
  rw [subf_apply, lsm_broadcastTo_a1_ab_apply, lsm_shapeCast_a_a1_apply, lsm_block_rowMax]

/-- The body's arithmetic after the bias is added, on a block `y`, at `(p, q)`: the log-softmax of row `p` at `q`. -/
theorem lsm_block_apply (y : FVec Ideal S5000x40 .f32) (hφ : FKind.Formats .f32)
    (hm : (0xFF800000#32 : BitVec 32) = FKind.maximumf.neutral .f32 hφ)
    (ha : (0x00000000#32 : BitVec 32) = FKind.add.neutral .f32 hφ) (p : Fin 5000) (q : Fin 40) :
    subf (subf y (broadcastTo S5000x40 (shapeCast S5000x1
          (multiReduction .maximumf [1] S5000 y 0xFF800000#32 reduces_S5000x40_S5000 hφ hm) shapeCasts_S5000_S5000x1)
          broadcasts_S5000x1_S5000x40))
        (broadcastTo S5000x40 (log (shapeCast S5000x1
          (multiReduction .add [1] S5000
            (exp (subf y (broadcastTo S5000x40 (shapeCast S5000x1
              (multiReduction .maximumf [1] S5000 y 0xFF800000#32 reduces_S5000x40_S5000 hφ hm) shapeCasts_S5000_S5000x1)
              broadcasts_S5000x1_S5000x40)))
            0x00000000#32 reduces_S5000x40_S5000 hφ ha) shapeCasts_S5000_S5000x1))
          broadcasts_S5000x1_S5000x40) (ix2 p q)
      = lsm_row (fun k => y (ix2 p k)) q := by
  rw [subf_apply, lsm_block_shift_apply, lsm_broadcastTo_a1_ab_apply]
  show _ - Ideal.log (shapeCast S5000x1 _ shapeCasts_S5000_S5000x1 (ix2 p (0 : Fin 1))) = _
  rw [lsm_shapeCast_a_a1_apply, lsm_block_rowSum]
  unfold lsm_row
  refine congrArg (fun s => _ - Ideal.log s) (Finset.sum_congr rfl fun k _ => ?_)
  show Ideal.exp (subf y _ (ix2 p k)) = _
  rw [lsm_block_shift_apply]

/-- The body's payload at `(p, q)` of its block: the log-softmax of row `p` of the loaded block plus the loaded
    bias row, at `q`. -/
theorem lsm_payload_apply (x : Vec Ideal S5000x40 .f32) (brow : Vec Ideal S1x40 .f32) (p : Fin 5000) (q : Fin 40) :
    k2_pay1 (F := Ideal) x brow (ix2 p q) = lsm_row (fun k => x (ix2 p k) + brow (ix2 (0 : Fin 1) k)) q := by
  unfold k2_pay1
  refine (lsm_block_apply _ _ _ _ p q).trans ?_
  refine congrArg (fun h => lsm_row h q) (funext fun k => ?_)
  rw [addf_apply, shapeCast_self, shapeCast_self, shapeCast_self, broadcastTo_1b_ab_apply]

end Cert.Regions

/-! ## The region's array -/

namespace Cert.Regions

open Idealize.ShloMosaic Idealize.ShloMosaic.TcCoe Idealize.SL.Sem
open Cert.KernelIdeal Cert.KernelIdeal.Gen
open Idealize.ShloMosaic.ValueIdx Cert.Stages

/-- A float array of shape `S` at the exact instance. -/
abbrev Arr2 (S : Shape) : Type := (⟨S, .f32⟩ : BufTy).Contents (Elt Ideal)

/-- The body's accesses start at zero on both axes. -/
theorem lsm_zero_offsets : (![0, 0] : Fin 2 → Nat) = fun _ => 0 := funext fun a => by fin_cases a <;> rfl

/-- The windows' index maps, evaluated at every point of the grid: at point `t` the aggregated array's block and the output's block
    are row block `t`, column block 0, and the bias row's block is the whole row. -/
theorem lsm_block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Block `t` of the aggregated array is its rows `5000 t … 5000 t + 4999`. -/
theorem lsm_agg_block_apply (V : (c : Dev nD) → (b : Ref sig .tc) → Buf (Elt Ideal) ((c : Thread nD τ).loc b)) (c : Dev nD)
    (t : Fin cfg2.N) (x : S5000x40.Idx) (k : S100000x40.Idx)
    (hk0 : (k 0).val = 5000 * t.val + (x 0).val) (hk1 : (k 1).val = (x 1).val) :
    (iblk2 V c 0 t : Vec Ideal S5000x40 .f32) x = (V c main_v58 : S100000x40.Idx → Elt Ideal .f32) k := by
  obtain ⟨e00, e01, -⟩ := lsm_block_indices t
  unfold iblk2
  rw [View.read_apply]
  show V c main_v58 _ = V c main_v58 _
  refine congrArg (V c main_v58) (funext fun a => Fin.ext ?_)
  match a with
  | ⟨0, _⟩ => show win2_0.index t (0 : Fin 2) * 5000 + 1 * (x 0).val = (k 0).val; rw [e00, hk0]; omega
  | ⟨1, _⟩ => show win2_0.index t (1 : Fin 2) * 40 + 1 * (x 1).val = (k 1).val; rw [e01, hk1]; omega

/-- The bias row's block is the whole row at every point. -/
theorem lsm_bias_block_apply (V : (c : Dev nD) → (b : Ref sig .tc) → Buf (Elt Ideal) ((c : Thread nD τ).loc b)) (c : Dev nD)
    (t : Fin cfg2.N) (x : S1x40.Idx) :
    (iblk2 V c 1 t : Vec Ideal S1x40 .f32) x = (V c main_v59 : S1x40.Idx → Elt Ideal .f32) x := by
  obtain ⟨-, -, e10, e11, -⟩ := lsm_block_indices t
  unfold iblk2
  rw [View.read_apply]
  show V c main_v59 _ = V c main_v59 _
  refine congrArg (V c main_v59) (funext fun a => Fin.ext ?_)
  match a with
  | ⟨0, _⟩ => show win2_1.index t (0 : Fin 2) * 1 + 1 * (x 0).val = (x 0).val; rw [e10]; omega
  | ⟨1, _⟩ => show win2_1.index t (1 : Fin 2) * 40 + 1 * (x 1).val = (x 1).val; rw [e11]; omega

/-- One entry of the body's payload against one entry of the host's log_softmax: when row `j 0` of the loaded block
    is row `i 0` of the array `A`, the loaded bias row is `b2`, and the two columns agree, the payload at `j` is the
    host's log_softmax of `A` plus `b2` at `i`. -/
theorem lsm_payload_eq (x : Vec Ideal S5000x40 .f32) (brow : Vec Ideal S1x40 .f32)
    (A : Arr2 Cert.ReferenceIdeal.S100000x40) (b2 : Arr2 Cert.ReferenceIdeal.S40)
    (j : S5000x40.Idx) (i : Cert.ReferenceIdeal.S100000x40.Idx) (hq : (i 1).val = (j 1).val)
    (hx : ∀ k : Fin 40, x (ix2 (⟨(j 0).val, idx2_lt0 j⟩ : Fin 5000) k) = A (ix2 (⟨(i 0).val, idx2_lt0 i⟩ : Fin 100000) k))
    (hbr : ∀ k : Fin 40, brow (ix2 (0 : Fin 1) k) = b2 (ix1 k)) :
    k2_pay1 (F := Ideal) x brow j = Cert.Stages.lsm (F := Ideal) A b2 i := by
  obtain ⟨p, q, rfl⟩ : ∃ (p : Fin 5000) (q : Fin 40), j = ix2 p q := ⟨j 0, j 1, eq_ix2 j⟩
  obtain ⟨r, q', rfl⟩ : ∃ (r : Fin 100000) (q' : Fin 40), i = ix2 r q' := ⟨i 0, i 1, eq_ix2 i⟩
  obtain rfl : q' = q := Fin.ext hq
  rw [lsm_payload_apply, lsm_apply]
  refine congrArg (fun h => lsm_row h q') (funext fun k => ?_)
  rw [hbr k]
  exact congrArg (· + b2 (ix1 k)) (hx k)

/-- What point `t` writes back is block `t` of the host's log_softmax of the aggregated array plus the bias. -/
theorem lsm_flushed_block (V : (c : Dev nD) → (b : Ref sig .tc) → Buf (Elt Ideal) ((c : Thread nD τ).loc b)) (c : Dev nD)
    (b2 : Arr2 S40) (hb : (V c main_v59 : Arr2 S1x40) = shapeCast S1x40 b2 shapeCasts_S40_S1x40) (t : Fin cfg2.N) :
    (dat2 (F := Ideal) V c).flushed 2 t = ((cfg2.win 2).blk t).view.read (Elt Ideal)
      (Cert.Stages.lsm (F := Ideal) (V c main_v58 : Arr2 Cert.ReferenceIdeal.S100000x40) (b2 : Arr2 Cert.ReferenceIdeal.S40)) := by
  show (cfg2.win 2).cut (grid2.coords t) ((dat2 V c).after 2 t) = _
  rw [after2_2]
  unfold out2_2
  rw [View.canon_unit_zero lsm_zero_offsets]
  simp only [View.ld_unit_zero (S := S5000x40) lsm_zero_offsets, View.ld_unit_zero (S := S1x40) lsm_zero_offsets]
  obtain ⟨-, -, -, -, e20, e21⟩ := lsm_block_indices t
  funext j
  show k2_pay1 (iblk2 V c 0 t) (iblk2 V c 1 t) j
    = Cert.Stages.lsm (F := Ideal) (V c main_v58) b2 (((cfg2.win 2).blk t).view.emb j)
  refine lsm_payload_eq (iblk2 V c 0 t) (iblk2 V c 1 t) (V c main_v58) b2 j (((cfg2.win 2).blk t).view.emb j) ?_ ?_ ?_
  · show win2_2.index t (1 : Fin 2) * 40 + 1 * (j 1).val = (j 1).val
    rw [e21]; omega
  · intro k
    refine lsm_agg_block_apply V c t _ _ ?_ rfl
    show win2_2.index t (0 : Fin 2) * 5000 + 1 * (j 0).val = 5000 * t.val + (j 0).val
    rw [e20]; omega
  · intro k
    rw [lsm_bias_block_apply, hb]
    exact shapeCast_a_1a_apply b2 shapeCasts_S40_S1x40 (0 : Fin 1) k

/-- An index of the output array is in point `t`'s block iff each coordinate is in the block's range on its axis. -/
theorem lsm_mem_block (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v60).slice (win2_2.rect t)).set ↔ _
  rw [View.set_slice_whole, Rect.mem_set_unit]
  exact Iff.rfl

/-- Every index of the output array is in the block of the point its row falls in: row `r` in block `r / 5000`. -/
theorem lsm_covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_2 _, ?_⟩
  rw [lsm_mem_block]
  obtain ⟨-, -, -, -, e20, e21⟩ := lsm_block_indices ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e20]; show (i 0).val / 5000 * 5000 ≤ (i 0).val ∧ (i 0).val < (i 0).val / 5000 * 5000 + 5000; omega
  | ⟨1, _⟩ =>
    show win2_2.index _ (1 : Fin 2) * 40 ≤ (i 1).val ∧ (i 1).val < win2_2.index _ (1 : Fin 2) * 40 + 40
    rw [e21]; omega

/-- What region 2 leaves in its output array, for any buffer contents `V` at its entry whose bias window holds
    the bias vector `b2` laid out as one row: the host's log_softmax of the aggregated array plus `b2`. -/
theorem region2_value (V : (c : Dev nD) → (b : Ref sig .tc) → Buf (Elt Ideal) ((c : Thread nD τ).loc b)) (c : Dev nD)
    (b2 : Arr2 S40) (hb : (V c main_v59 : Arr2 S1x40) = shapeCast S1x40 b2 shapeCasts_S40_S1x40) :
    (dat2 (F := Ideal) V c).arrAt 2 cfg2.N
      = Cert.Stages.lsm (F := Ideal) (V c main_v58 : Arr2 Cert.ReferenceIdeal.S100000x40) (b2 : Arr2 Cert.ReferenceIdeal.S40) :=
  (dat2 (F := Ideal) V c).arrAt_eq_of_cover 2 _ (fun t _ => lsm_flushed_block V c b2 hb t) lsm_covered

end Cert.Regions

end
-- ==== Proof.Network.lean ====
/- The whole two-layer network on whole arrays, as the composition of the shared host chains and the three dense
   stages: log_softmax (Â · relu (Â · (X · W1) + b1) · W2 + b2), with Â the normalised adjacency written as
   "gather at src, scale, scatter-add at dst". Both programs' results are shown equal to this one function of the
   six argument arrays. -/
import proofs.«133573_j63677185130713_1_alg».proof.Proof.Stages
import proofs.«133573_j63677185130713_1_alg».proof.Proof.Region1
import proofs.«133573_j63677185130713_1_alg».proof.Proof.Region2

noncomputable section

namespace Cert.Stages

open Idealize.ShloMosaic Idealize.ShloMosaic.TcCoe Idealize.SL.Sem
open Cert.ReferenceIdeal Cert.ReferenceIdeal.Gen

variable {F : FTy → Type} [FloatOps F]

/-- The network's output as a function of the node features, the edge list and the two layers' weights and biases. -/
def gcn (x0 : FArr F S100000x256) (x1 : IArr F S2x3200000) (x2 : FArr F S256x64) (x3 : FArr F S64) (x4 : FArr F S64x40)
    (x5 : FArr F S40) : FArr F S100000x40 :=
  lsm (agg40 (normOf (srcIdx x1) (dstIdx x1)) (srcIdx x1) (dstIdx x1)
        (layer2 (agg64 (normOf (srcIdx x1) (dstIdx x1)) (srcIdx x1) (dstIdx x1) (lin1 x0 x2)) x3 x4)) x5

end Cert.Stages

end
-- ==== Proof.KernelValue.lean ====
/- The idealized kernel program's result as the network function of its argument arrays. The generated frame keeps
   the buffer contents at every segment boundary of @main as a fold (W0 … W8); this module walks that fold once: each
   host stretch by what it leaves (Proof/HostChain.lean), each region by the whole-array function its write-backs
   leave (Proof/Region0/1/2.lean), every buffer nobody writes carried across unchanged. -/
import proofs.«133573_j63677185130713_1_alg».proof.Proof.HostChain
import proofs.«133573_j63677185130713_1_alg».proof.Proof.Region0
import proofs.«133573_j63677185130713_1_alg».proof.Proof.Network

set_option maxRecDepth 16384
set_option maxHeartbeats 1000000

noncomputable section

namespace Cert.KernelIdeal.KernelValue

open Cert.KernelIdeal Cert.KernelIdeal.Gen Cert.KernelIdeal.HostChain
open Idealize.ShloMosaic Idealize.ShloMosaic.TcCoe Idealize.SL.Sem Idealize.ShloMosaic.StableHlo
open Cert.Stages (IArr FArr srcIdx dstIdx wrapIdx degOf degInv normOf agg64 agg40 lin1 layer2 lsm gcn)

variable (m : (ℓ : Loc nD τ sig) → Buf (Elt Ideal) ℓ) (ρ : Dev nD → PrngReg) (c : Dev nD)

/-! ## The argument arrays as launched -/

abbrev X0 : FArr Ideal Cert.ReferenceIdeal.S100000x256 := m ((c : Thread nD τ).loc main_arg0)
abbrev X1 : IArr Ideal Cert.ReferenceIdeal.S2x3200000 := m ((c : Thread nD τ).loc main_arg1)
abbrev X2 : FArr Ideal Cert.ReferenceIdeal.S256x64 := m ((c : Thread nD τ).loc main_arg2)
abbrev X3 : FArr Ideal Cert.ReferenceIdeal.S64 := m ((c : Thread nD τ).loc main_arg3)
abbrev X4 : FArr Ideal Cert.ReferenceIdeal.S64x40 := m ((c : Thread nD τ).loc main_arg4)
abbrev X5 : FArr Ideal Cert.ReferenceIdeal.S40 := m ((c : Thread nD τ).loc main_arg5)

/-- The index vectors and the edge coefficients, as every later item finds them. -/
abbrev SRC : IArr Ideal Cert.ReferenceIdeal.S3300000 := srcIdx (X1 m c)
abbrev DST : IArr Ideal Cert.ReferenceIdeal.S3300000 := dstIdx (X1 m c)
abbrev NRM : FArr Ideal Cert.ReferenceIdeal.S3300000 := normOf (SRC m c) (DST m c)

/-! ## At region 0's entry (after the three pieces of stretch 0) -/

theorem e0_src : W3 m ρ c (Proc.devRef .tc main_v3) = SRC m c :=
  (s02_keep_v3 (W2 m ρ c)).trans ((s01_keep_v3 (W1 m ρ c)).trans (s0_src (W0 m ρ c)))
theorem e0_dst : W3 m ρ c (Proc.devRef .tc main_v6) = DST m c :=
  (s02_keep_v6 (W2 m ρ c)).trans ((s01_keep_v6 (W1 m ρ c)).trans (s0_dst (W0 m ρ c)))
theorem e0_arg0 : W3 m ρ c (Proc.devRef .tc main_arg0) = X0 m c :=
  (s02_keep_arg0 (W2 m ρ c)).trans ((s01_keep_arg0 (W1 m ρ c)).trans (s0_keep_arg0 (W0 m ρ c)))
theorem e0_arg2 : W3 m ρ c (Proc.devRef .tc main_arg2) = X2 m c :=
  (s02_keep_arg2 (W2 m ρ c)).trans ((s01_keep_arg2 (W1 m ρ c)).trans (s0_keep_arg2 (W0 m ρ c)))
theorem e0_arg3 : W3 m ρ c (Proc.devRef .tc main_arg3) = X3 m c :=
  (s02_keep_arg3 (W2 m ρ c)).trans ((s01_keep_arg3 (W1 m ρ c)).trans (s0_keep_arg3 (W0 m ρ c)))
theorem e0_arg4 : W3 m ρ c (Proc.devRef .tc main_arg4) = X4 m c :=
  (s02_keep_arg4 (W2 m ρ c)).trans ((s01_keep_arg4 (W1 m ρ c)).trans (s0_keep_arg4 (W0 m ρ c)))
theorem e0_arg5 : W3 m ρ c (Proc.devRef .tc main_arg5) = X5 m c :=
  (s02_keep_arg5 (W2 m ρ c)).trans ((s01_keep_arg5 (W1 m ρ c)).trans (s0_keep_arg5 (W0 m ρ c)))

/-- The inverse-square-root degrees after the second piece. -/
theorem e0_dinv : W2 m ρ c (Proc.devRef .tc main_v14) = degInv (DST m c) := by
  have h := s01_dinv (W1 m ρ c)
  have h12 : W1 m ρ c (Proc.devRef .tc main_v12) = _ := s0_pos (W0 m ρ c)
  have h13 : W1 m ρ c (Proc.devRef .tc main_v13) = _ := s0_rsqrt (W0 m ρ c)
  have hz : W1 m ρ c (Proc.devRef .tc main_cst_2) = _ := s0_zero (W0 m ρ c)
  rw [h12, h13, hz] at h
  exact h

/-- The edge coefficients after the third piece. -/
theorem e0_norm : W3 m ρ c (Proc.devRef .tc main_v29) = NRM m c := by
  have h := s02_norm (W2 m ρ c)
  have h14 : W2 m ρ c (Proc.devRef .tc main_v14) = _ := e0_dinv m ρ c
  have h3 : W2 m ρ c (Proc.devRef .tc main_v3) = SRC m c := (s01_keep_v3 (W1 m ρ c)).trans (s0_src (W0 m ρ c))
  have h6 : W2 m ρ c (Proc.devRef .tc main_v6) = DST m c := (s01_keep_v6 (W1 m ρ c)).trans (s0_dst (W0 m ρ c))
  rw [h14, h3, h6] at h
  exact h

/-! ## At region 0's exit -/

/-- Region 0 leaves the whole product X · W1 in its output array. -/
theorem x0_lin : W4 m ρ c (Proc.devRef .tc main_v30) = lin1 (X0 m c) (X2 m c) := by
  have h := (W4_arr m ρ c 2).trans (Cert.Regions.region0_value (V3 m ρ) c)
  have h0 : V3 m ρ c main_arg0 = X0 m c := e0_arg0 m ρ c
  have h2 : V3 m ρ c main_arg2 = X2 m c := e0_arg2 m ρ c
  rw [h0, h2] at h
  exact h

theorem x0_src : W4 m ρ c (Proc.devRef .tc main_v3) = SRC m c := (W4_of_ne m ρ c main_v3 (by decide)).trans (e0_src m ρ c)
theorem x0_dst : W4 m ρ c (Proc.devRef .tc main_v6) = DST m c := (W4_of_ne m ρ c main_v6 (by decide)).trans (e0_dst m ρ c)
theorem x0_norm : W4 m ρ c (Proc.devRef .tc main_v29) = NRM m c := (W4_of_ne m ρ c main_v29 (by decide)).trans (e0_norm m ρ c)
theorem x0_arg3 : W4 m ρ c (Proc.devRef .tc main_arg3) = X3 m c := (W4_of_ne m ρ c main_arg3 (by decide)).trans (e0_arg3 m ρ c)
theorem x0_arg4 : W4 m ρ c (Proc.devRef .tc main_arg4) = X4 m c := (W4_of_ne m ρ c main_arg4 (by decide)).trans (e0_arg4 m ρ c)
theorem x0_arg5 : W4 m ρ c (Proc.devRef .tc main_arg5) = X5 m c := (W4_of_ne m ρ c main_arg5 (by decide)).trans (e0_arg5 m ρ c)

/-! ## At region 1's entry (after stretch 1) -/

/-- The first aggregation. -/
abbrev AGG1 : FArr Ideal Cert.ReferenceIdeal.S100000x64 := agg64 (NRM m c) (SRC m c) (DST m c) (lin1 (X0 m c) (X2 m c))

theorem e1_agg : W5 m ρ c (Proc.devRef .tc main_v43) = AGG1 m c := by
  have h := s1_agg (W4 m ρ c)
  rw [x0_norm m ρ c, x0_src m ρ c, x0_dst m ρ c, x0_lin m ρ c] at h
  exact h
theorem e1_bias : W5 m ρ c (Proc.devRef .tc main_v44) = shapeCast S1x64 (X3 m c : FArr Ideal S64) shapeCasts_S64_S1x64 := by
  have h := s1_bias (W4 m ρ c)
  rw [x0_arg3 m ρ c] at h
  exact h
theorem e1_src : W5 m ρ c (Proc.devRef .tc main_v3) = SRC m c := (s1_keep_v3 (W4 m ρ c)).trans (x0_src m ρ c)
theorem e1_dst : W5 m ρ c (Proc.devRef .tc main_v6) = DST m c := (s1_keep_v6 (W4 m ρ c)).trans (x0_dst m ρ c)
theorem e1_norm : W5 m ρ c (Proc.devRef .tc main_v29) = NRM m c := (s1_keep_v29 (W4 m ρ c)).trans (x0_norm m ρ c)
theorem e1_arg4 : W5 m ρ c (Proc.devRef .tc main_arg4) = X4 m c := (s1_keep_arg4 (W4 m ρ c)).trans (x0_arg4 m ρ c)
theorem e1_arg5 : W5 m ρ c (Proc.devRef .tc main_arg5) = X5 m c := (s1_keep_arg5 (W4 m ρ c)).trans (x0_arg5 m ρ c)

/-! ## At region 1's exit -/

/-- The second layer's dense half of the first aggregation. -/
abbrev H2 : FArr Ideal Cert.ReferenceIdeal.S100000x40 := layer2 (AGG1 m c) (X3 m c) (X4 m c)

theorem x1_layer : W6 m ρ c (Proc.devRef .tc main_v45) = H2 m c := by
  have h := (W6_arr m ρ c 3).trans (Cert.Regions.region1_value (V5 m ρ) c (X3 m c) (e1_bias m ρ c))
  have ha : V5 m ρ c main_v43 = AGG1 m c := e1_agg m ρ c
  have h4 : V5 m ρ c main_arg4 = X4 m c := e1_arg4 m ρ c
  rw [ha, h4] at h
  exact h

theorem x1_src : W6 m ρ c (Proc.devRef .tc main_v3) = SRC m c := (W6_of_ne m ρ c main_v3 (by decide)).trans (e1_src m ρ c)
theorem x1_dst : W6 m ρ c (Proc.devRef .tc main_v6) = DST m c := (W6_of_ne m ρ c main_v6 (by decide)).trans (e1_dst m ρ c)
theorem x1_norm : W6 m ρ c (Proc.devRef .tc main_v29) = NRM m c := (W6_of_ne m ρ c main_v29 (by decide)).trans (e1_norm m ρ c)
theorem x1_arg5 : W6 m ρ c (Proc.devRef .tc main_arg5) = X5 m c := (W6_of_ne m ρ c main_arg5 (by decide)).trans (e1_arg5 m ρ c)

/-! ## At region 2's entry (after stretch 2), and its exit -/

/-- The second aggregation. -/
abbrev AGG2 : FArr Ideal Cert.ReferenceIdeal.S100000x40 := agg40 (NRM m c) (SRC m c) (DST m c) (H2 m c)

theorem e2_agg : W7 m ρ c (Proc.devRef .tc main_v58) = AGG2 m c := by
  have h := s2_agg (W6 m ρ c)
  rw [x1_norm m ρ c, x1_src m ρ c, x1_dst m ρ c, x1_layer m ρ c] at h
  exact h
theorem e2_bias : W7 m ρ c (Proc.devRef .tc main_v59) = shapeCast S1x40 (X5 m c : FArr Ideal S40) shapeCasts_S40_S1x40 := by
  have h := s2_bias (W6 m ρ c)
  rw [x1_arg5 m ρ c] at h
  exact h

/-- THE KERNEL PROGRAM'S RESULT: the result buffer at the last boundary holds the network function of the
    argument arrays as launched. -/
theorem result_eq : W8 m ρ c (Proc.devRef .tc main_v60) = gcn (X0 m c) (X1 m c) (X2 m c) (X3 m c) (X4 m c) (X5 m c) := by
  have h := (W8_arr m ρ c 2).trans (Cert.Regions.region2_value (V7 m ρ) c (X5 m c) (e2_bias m ρ c))
  have ha : V7 m ρ c main_v58 = AGG2 m c := e2_agg m ρ c
  rw [ha] at h
  exact h

end Cert.KernelIdeal.KernelValue

end
-- ==== Proof.RefRunValue.lean ====
/- The reference's run, read back by hand: the generated operation list (Proof/RefRun.lean `ops`, 131 host
   operations) cut into eight consecutive stretches, each read once for ANY buffer contents it starts from — what it
   leaves in the buffers later stretches read, as the shared host chains and dense stages of what it found, and which
   buffers it leaves alone —, then the eight composed from the launch contents: the result buffer ends holding the
   network function `gcn` of the six argument arrays. The reference computes the edge coefficients twice (stretches
   A and D), by the same operations: both times they are `normOf` of the same index vectors. -/
import proofs.«133573_j63677185130713_1_alg».proof.Proof.RefRun
import proofs.«133573_j63677185130713_1_alg».proof.Proof.Network
import Idealize.ShloMosaic.Lib.StableHlo.Run

set_option maxRecDepth 16384
set_option maxHeartbeats 1000000

noncomputable section

namespace Cert.ReferenceIdeal.RunValue

open Cert.ReferenceIdeal Cert.ReferenceIdeal.Gen Cert.ReferenceIdeal.Value
open Idealize.ShloMosaic Idealize.ShloMosaic.TcCoe Idealize.SL.Sem Idealize.ShloMosaic.StableHlo
open Cert.Stages (IArr FArr srcIdx dstIdx wrapIdx degOf degInv normOf agg64 agg40 lin1 layer2 lsm gcn)

variable {F : FTy → Type} [FloatOps F]

/-- The contents after two lines run one after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- A value laid out at a typed reference's buffer type and read back at the value's type is the value. -/
theorem ofBuf_toBuf {T : BufTy} (x : TRef sig T) (v : T.Contents (Elt F)) : x.ofBuf (x.toBuf v) = v := by
  obtain ⟨r, h, hd, hu⟩ := x
  subst h
  rfl

/-! ## The eight stretches of the operation list -/

/-- Operations 1–21: the index vectors, the degrees, and deg^(-1/2) kept where the degree is positive. -/
abbrev sA1 : List (HloOp τ sig (Elt F)) := (ops (F := F)).take 21
/-- Operations 22–40: the edge coefficients. -/
abbrev sA2 : List (HloOp τ sig (Elt F)) := ((ops (F := F)).drop 21).take 19
/-- Operations 41–57: X · W1 and its aggregation. -/
abbrev sB : List (HloOp τ sig (Elt F)) := ((ops (F := F)).drop 40).take 17
/-- Operations 58–63: the first bias and the maximum with zero. -/
abbrev sC : List (HloOp τ sig (Elt F)) := ((ops (F := F)).drop 57).take 6
/-- Operations 64–77: the degrees and deg^(-1/2) again. -/
abbrev sD1 : List (HloOp τ sig (Elt F)) := ((ops (F := F)).drop 63).take 14
/-- Operations 78–96: the edge coefficients again. -/
abbrev sD2 : List (HloOp τ sig (Elt F)) := ((ops (F := F)).drop 77).take 19
/-- Operations 97–113: the second product and its aggregation. -/
abbrev sE : List (HloOp τ sig (Elt F)) := ((ops (F := F)).drop 96).take 17
/-- Operations 114–131: the second bias and the row log-softmax. -/
abbrev sF : List (HloOp τ sig (Elt F)) := (ops (F := F)).drop 113

/-- The list is its eight stretches in order. -/
theorem ops_split : (ops (F := F)) = sA1 ++ (sA2 ++ (sB ++ (sC ++ (sD1 ++ (sD2 ++ (sE ++ sF)))))) := by
  rfl

section Stretches

variable (Wp : Valuation τ sig (Elt F))

/-! ### A1 -/

theorem a1_src : StableHlo.after (sA1 (F := F)) Wp (Proc.devRef .tc main_v3) = srcIdx (F := F) (Wp (Proc.devRef .tc main_arg1)) := by
  dsimp only [sA1, ops, List.take]; after_results; rfl
theorem a1_dst : StableHlo.after (sA1 (F := F)) Wp (Proc.devRef .tc main_v6) = dstIdx (F := F) (Wp (Proc.devRef .tc main_arg1)) := by
  dsimp only [sA1, ops, List.take]; after_results; rfl
theorem a1_dinv : StableHlo.after (sA1 (F := F)) Wp (Proc.devRef .tc main_v14)
    = degInv (F := F) (dstIdx (F := F) (Wp (Proc.devRef .tc main_arg1))) := by
  dsimp only [sA1, ops, List.take]; after_results; rfl
theorem a1_keep_arg0 : StableHlo.after (sA1 (F := F)) Wp (Proc.devRef .tc main_arg0) = Wp (Proc.devRef .tc main_arg0) := by
  dsimp only [sA1, ops, List.take, List.drop]; after_results
theorem a1_keep_arg2 : StableHlo.after (sA1 (F := F)) Wp (Proc.devRef .tc main_arg2) = Wp (Proc.devRef .tc main_arg2) := by
  dsimp only [sA1, ops, List.take, List.drop]; after_results
theorem a1_keep_arg3 : StableHlo.after (sA1 (F := F)) Wp (Proc.devRef .tc main_arg3) = Wp (Proc.devRef .tc main_arg3) := by
  dsimp only [sA1, ops, List.take, List.drop]; after_results
theorem a1_keep_arg4 : StableHlo.after (sA1 (F := F)) Wp (Proc.devRef .tc main_arg4) = Wp (Proc.devRef .tc main_arg4) := by
  dsimp only [sA1, ops, List.take, List.drop]; after_results
theorem a1_keep_arg5 : StableHlo.after (sA1 (F := F)) Wp (Proc.devRef .tc main_arg5) = Wp (Proc.devRef .tc main_arg5) := by
  dsimp only [sA1, ops, List.take, List.drop]; after_results

/-! ### A2 -/

theorem a2_norm : StableHlo.after (sA2 (F := F)) Wp (Proc.devRef .tc main_v29)
    = mulf (Host.gather gather_S100000_S3300000x1_S3300000_n_0_n_n_0_1_1 (Wp (Proc.devRef .tc main_v14)) (wrapIdx (F := F) (Wp (Proc.devRef .tc main_v3))))
        (Host.gather gather_S100000_S3300000x1_S3300000_n_0_n_n_0_1_1 (Wp (Proc.devRef .tc main_v14)) (wrapIdx (F := F) (Wp (Proc.devRef .tc main_v6)))) := by
  dsimp only [sA2, ops, List.take, List.drop]; after_results; rfl
theorem a2_keep_v3 : StableHlo.after (sA2 (F := F)) Wp (Proc.devRef .tc main_v3) = Wp (Proc.devRef .tc main_v3) := by
  dsimp only [sA2, ops, List.take, List.drop]; after_results
theorem a2_keep_v6 : StableHlo.after (sA2 (F := F)) Wp (Proc.devRef .tc main_v6) = Wp (Proc.devRef .tc main_v6) := by
  dsimp only [sA2, ops, List.take, List.drop]; after_results
theorem a2_keep_arg0 : StableHlo.after (sA2 (F := F)) Wp (Proc.devRef .tc main_arg0) = Wp (Proc.devRef .tc main_arg0) := by
  dsimp only [sA2, ops, List.take, List.drop]; after_results
theorem a2_keep_arg2 : StableHlo.after (sA2 (F := F)) Wp (Proc.devRef .tc main_arg2) = Wp (Proc.devRef .tc main_arg2) := by
  dsimp only [sA2, ops, List.take, List.drop]; after_results
theorem a2_keep_arg3 : StableHlo.after (sA2 (F := F)) Wp (Proc.devRef .tc main_arg3) = Wp (Proc.devRef .tc main_arg3) := by
  dsimp only [sA2, ops, List.take, List.drop]; after_results
theorem a2_keep_arg4 : StableHlo.after (sA2 (F := F)) Wp (Proc.devRef .tc main_arg4) = Wp (Proc.devRef .tc main_arg4) := by
  dsimp only [sA2, ops, List.take, List.drop]; after_results
theorem a2_keep_arg5 : StableHlo.after (sA2 (F := F)) Wp (Proc.devRef .tc main_arg5) = Wp (Proc.devRef .tc main_arg5) := by
  dsimp only [sA2, ops, List.take, List.drop]; after_results

/-! ### B -/

theorem b_agg : StableHlo.after (sB (F := F)) Wp (Proc.devRef .tc main_v43)
    = agg64 (F := F) (Wp (Proc.devRef .tc main_v29)) (Wp (Proc.devRef .tc main_v3)) (Wp (Proc.devRef .tc main_v6))
        (lin1 (F := F) (Wp (Proc.devRef .tc main_arg0)) (Wp (Proc.devRef .tc main_arg2))) := by
  dsimp only [sB, ops, List.take, List.drop]; after_results; rfl
theorem b_keep_v3 : StableHlo.after (sB (F := F)) Wp (Proc.devRef .tc main_v3) = Wp (Proc.devRef .tc main_v3) := by
  dsimp only [sB, ops, List.take, List.drop]; after_results
theorem b_keep_v6 : StableHlo.after (sB (F := F)) Wp (Proc.devRef .tc main_v6) = Wp (Proc.devRef .tc main_v6) := by
  dsimp only [sB, ops, List.take, List.drop]; after_results
theorem b_keep_arg3 : StableHlo.after (sB (F := F)) Wp (Proc.devRef .tc main_arg3) = Wp (Proc.devRef .tc main_arg3) := by
  dsimp only [sB, ops, List.take, List.drop]; after_results
theorem b_keep_arg4 : StableHlo.after (sB (F := F)) Wp (Proc.devRef .tc main_arg4) = Wp (Proc.devRef .tc main_arg4) := by
  dsimp only [sB, ops, List.take, List.drop]; after_results
theorem b_keep_arg5 : StableHlo.after (sB (F := F)) Wp (Proc.devRef .tc main_arg5) = Wp (Proc.devRef .tc main_arg5) := by
  dsimp only [sB, ops, List.take, List.drop]; after_results

/-! ### C -/

theorem c_relu : StableHlo.after (sC (F := F)) Wp (Proc.devRef .tc main_v47)
    = maximumf
        (addf (Wp (Proc.devRef .tc main_v43) : FArr F S100000x64)
          (broadcastInDim S100000x64 ![0, 1] bcast_S1x64_S100000x64_0_1 (broadcastInDim S1x64 ![1] bcast_S64_S1x64_1 (Wp (Proc.devRef .tc main_arg3) : FArr F S64))))
        (broadcastInDim S100000x64 ![] bcast_S_S100000x64 (constant (F := F) S_ .f32 0x00000000#32)) := by
  dsimp only [sC, ops, List.take, List.drop]; after_results; rfl
theorem c_keep_v3 : StableHlo.after (sC (F := F)) Wp (Proc.devRef .tc main_v3) = Wp (Proc.devRef .tc main_v3) := by
  dsimp only [sC, ops, List.take, List.drop]; after_results
theorem c_keep_v6 : StableHlo.after (sC (F := F)) Wp (Proc.devRef .tc main_v6) = Wp (Proc.devRef .tc main_v6) := by
  dsimp only [sC, ops, List.take, List.drop]; after_results
theorem c_keep_arg4 : StableHlo.after (sC (F := F)) Wp (Proc.devRef .tc main_arg4) = Wp (Proc.devRef .tc main_arg4) := by
  dsimp only [sC, ops, List.take, List.drop]; after_results
theorem c_keep_arg5 : StableHlo.after (sC (F := F)) Wp (Proc.devRef .tc main_arg5) = Wp (Proc.devRef .tc main_arg5) := by
  dsimp only [sC, ops, List.take, List.drop]; after_results

/-! ### D1 -/

theorem d1_dinv : StableHlo.after (sD1 (F := F)) Wp (Proc.devRef .tc main_v55) = degInv (F := F) (Wp (Proc.devRef .tc main_v6)) := by
  dsimp only [sD1, ops, List.take, List.drop]; after_results; rfl
theorem d1_keep_v3 : StableHlo.after (sD1 (F := F)) Wp (Proc.devRef .tc main_v3) = Wp (Proc.devRef .tc main_v3) := by
  dsimp only [sD1, ops, List.take, List.drop]; after_results
theorem d1_keep_v6 : StableHlo.after (sD1 (F := F)) Wp (Proc.devRef .tc main_v6) = Wp (Proc.devRef .tc main_v6) := by
  dsimp only [sD1, ops, List.take, List.drop]; after_results
theorem d1_keep_v47 : StableHlo.after (sD1 (F := F)) Wp (Proc.devRef .tc main_v47) = Wp (Proc.devRef .tc main_v47) := by
  dsimp only [sD1, ops, List.take, List.drop]; after_results
theorem d1_keep_arg4 : StableHlo.after (sD1 (F := F)) Wp (Proc.devRef .tc main_arg4) = Wp (Proc.devRef .tc main_arg4) := by
  dsimp only [sD1, ops, List.take, List.drop]; after_results
theorem d1_keep_arg5 : StableHlo.after (sD1 (F := F)) Wp (Proc.devRef .tc main_arg5) = Wp (Proc.devRef .tc main_arg5) := by
  dsimp only [sD1, ops, List.take, List.drop]; after_results

/-! ### D2 -/

theorem d2_norm : StableHlo.after (sD2 (F := F)) Wp (Proc.devRef .tc main_v70)
    = mulf (Host.gather gather_S100000_S3300000x1_S3300000_n_0_n_n_0_1_1 (Wp (Proc.devRef .tc main_v55)) (wrapIdx (F := F) (Wp (Proc.devRef .tc main_v3))))
        (Host.gather gather_S100000_S3300000x1_S3300000_n_0_n_n_0_1_1 (Wp (Proc.devRef .tc main_v55)) (wrapIdx (F := F) (Wp (Proc.devRef .tc main_v6)))) := by
  dsimp only [sD2, ops, List.take, List.drop]; after_results; rfl
theorem d2_keep_v3 : StableHlo.after (sD2 (F := F)) Wp (Proc.devRef .tc main_v3) = Wp (Proc.devRef .tc main_v3) := by
  dsimp only [sD2, ops, List.take, List.drop]; after_results
theorem d2_keep_v6 : StableHlo.after (sD2 (F := F)) Wp (Proc.devRef .tc main_v6) = Wp (Proc.devRef .tc main_v6) := by
  dsimp only [sD2, ops, List.take, List.drop]; after_results
theorem d2_keep_v47 : StableHlo.after (sD2 (F := F)) Wp (Proc.devRef .tc main_v47) = Wp (Proc.devRef .tc main_v47) := by
  dsimp only [sD2, ops, List.take, List.drop]; after_results
theorem d2_keep_arg4 : StableHlo.after (sD2 (F := F)) Wp (Proc.devRef .tc main_arg4) = Wp (Proc.devRef .tc main_arg4) := by
  dsimp only [sD2, ops, List.take, List.drop]; after_results
theorem d2_keep_arg5 : StableHlo.after (sD2 (F := F)) Wp (Proc.devRef .tc main_arg5) = Wp (Proc.devRef .tc main_arg5) := by
  dsimp only [sD2, ops, List.take, List.drop]; after_results

/-! ### E -/

theorem e_agg : StableHlo.after (sE (F := F)) Wp (Proc.devRef .tc main_v84)
    = agg40 (F := F) (Wp (Proc.devRef .tc main_v70)) (Wp (Proc.devRef .tc main_v3)) (Wp (Proc.devRef .tc main_v6))
        (Host.dotGeneral dot_S100000x64_S64x40_S100000x40_1_0_0_1_n_n none (Wp (Proc.devRef .tc main_v47) : FArr F S100000x64) (Wp (Proc.devRef .tc main_arg4) : FArr F S64x40)) := by
  dsimp only [sE, ops, List.take, List.drop]; after_results; rfl
theorem e_keep_arg5 : StableHlo.after (sE (F := F)) Wp (Proc.devRef .tc main_arg5) = Wp (Proc.devRef .tc main_arg5) := by
  dsimp only [sE, ops, List.take, List.drop]; after_results

/-! ### F -/

-- the called function's operations pass every value through its buffer's type and back: those round trips are
-- removed first; what is left is the host's operations on the two buffers read
set_option maxRecDepth 400000 in
theorem f_lsm : StableHlo.after (sF (F := F)) Wp (Proc.devRef .tc main_v88)
    = lsm (F := F) (Wp (Proc.devRef .tc main_v84)) (Wp (Proc.devRef .tc main_arg5)) := by
  dsimp only [sF, ops, List.drop]; after_results
  simp only [ofBuf_toBuf]
  rfl

end Stretches

/-! ## The eight composed, from the launch contents -/

section Compose

variable (L : Valuation τ sig (Elt F))

abbrev L1 : Valuation τ sig (Elt F) := StableHlo.after (sA1 (F := F)) L
abbrev L2 : Valuation τ sig (Elt F) := StableHlo.after (sA2 (F := F)) (L1 L)
abbrev L3 : Valuation τ sig (Elt F) := StableHlo.after (sB (F := F)) (L2 L)
abbrev L4 : Valuation τ sig (Elt F) := StableHlo.after (sC (F := F)) (L3 L)
abbrev L5 : Valuation τ sig (Elt F) := StableHlo.after (sD1 (F := F)) (L4 L)
abbrev L6 : Valuation τ sig (Elt F) := StableHlo.after (sD2 (F := F)) (L5 L)
abbrev L7 : Valuation τ sig (Elt F) := StableHlo.after (sE (F := F)) (L6 L)
abbrev L8 : Valuation τ sig (Elt F) := StableHlo.after (sF (F := F)) (L7 L)

/-- The whole list's fold is the stretches' folds composed. -/
theorem after_ops : StableHlo.after (ops (F := F)) L = L8 L := by
  rw [ops_split]
  simp only [after_append]

abbrev Y0 : FArr F S100000x256 := L (Proc.devRef .tc main_arg0)
abbrev Y1 : IArr F S2x3200000 := L (Proc.devRef .tc main_arg1)
abbrev Y2 : FArr F S256x64 := L (Proc.devRef .tc main_arg2)
abbrev Y3 : FArr F S64 := L (Proc.devRef .tc main_arg3)
abbrev Y4 : FArr F S64x40 := L (Proc.devRef .tc main_arg4)
abbrev Y5 : FArr F S40 := L (Proc.devRef .tc main_arg5)
abbrev SRC : IArr F S3300000 := srcIdx (Y1 L)
abbrev DST : IArr F S3300000 := dstIdx (Y1 L)
abbrev NRM : FArr F S3300000 := normOf (SRC L) (DST L)
abbrev AGG1 : FArr F S100000x64 := agg64 (NRM L) (SRC L) (DST L) (lin1 (Y0 L) (Y2 L))
abbrev H2 : FArr F S100000x40 := layer2 (AGG1 L) (Y3 L) (Y4 L)
abbrev AGG2 : FArr F S100000x40 := agg40 (NRM L) (SRC L) (DST L) (H2 L)

-- after A1
theorem p1_src : L1 L (Proc.devRef .tc main_v3) = SRC L := a1_src L
theorem p1_dst : L1 L (Proc.devRef .tc main_v6) = DST L := a1_dst L
theorem p1_dinv : L1 L (Proc.devRef .tc main_v14) = degInv (DST L) := a1_dinv L
theorem p1_arg0 : L1 L (Proc.devRef .tc main_arg0) = Y0 L := a1_keep_arg0 L
theorem p1_arg2 : L1 L (Proc.devRef .tc main_arg2) = Y2 L := a1_keep_arg2 L
theorem p1_arg3 : L1 L (Proc.devRef .tc main_arg3) = Y3 L := a1_keep_arg3 L
theorem p1_arg4 : L1 L (Proc.devRef .tc main_arg4) = Y4 L := a1_keep_arg4 L
theorem p1_arg5 : L1 L (Proc.devRef .tc main_arg5) = Y5 L := a1_keep_arg5 L
-- after A2
theorem p2_src : L2 L (Proc.devRef .tc main_v3) = SRC L := (a2_keep_v3 (L1 L)).trans (p1_src L)
theorem p2_dst : L2 L (Proc.devRef .tc main_v6) = DST L := (a2_keep_v6 (L1 L)).trans (p1_dst L)
theorem p2_arg0 : L2 L (Proc.devRef .tc main_arg0) = Y0 L := (a2_keep_arg0 (L1 L)).trans (p1_arg0 L)
theorem p2_arg2 : L2 L (Proc.devRef .tc main_arg2) = Y2 L := (a2_keep_arg2 (L1 L)).trans (p1_arg2 L)
theorem p2_arg3 : L2 L (Proc.devRef .tc main_arg3) = Y3 L := (a2_keep_arg3 (L1 L)).trans (p1_arg3 L)
theorem p2_arg4 : L2 L (Proc.devRef .tc main_arg4) = Y4 L := (a2_keep_arg4 (L1 L)).trans (p1_arg4 L)
theorem p2_arg5 : L2 L (Proc.devRef .tc main_arg5) = Y5 L := (a2_keep_arg5 (L1 L)).trans (p1_arg5 L)
theorem p2_norm : L2 L (Proc.devRef .tc main_v29) = NRM L := by
  have h := a2_norm (L1 L)
  rw [p1_dinv L, p1_src L, p1_dst L] at h
  exact h
-- after B
theorem p3_agg : L3 L (Proc.devRef .tc main_v43) = AGG1 L := by
  have h := b_agg (L2 L)
  rw [p2_norm L, p2_src L, p2_dst L, p2_arg0 L, p2_arg2 L] at h
  exact h
theorem p3_src : L3 L (Proc.devRef .tc main_v3) = SRC L := (b_keep_v3 (L2 L)).trans (p2_src L)
theorem p3_dst : L3 L (Proc.devRef .tc main_v6) = DST L := (b_keep_v6 (L2 L)).trans (p2_dst L)
theorem p3_arg3 : L3 L (Proc.devRef .tc main_arg3) = Y3 L := (b_keep_arg3 (L2 L)).trans (p2_arg3 L)
theorem p3_arg4 : L3 L (Proc.devRef .tc main_arg4) = Y4 L := (b_keep_arg4 (L2 L)).trans (p2_arg4 L)
theorem p3_arg5 : L3 L (Proc.devRef .tc main_arg5) = Y5 L := (b_keep_arg5 (L2 L)).trans (p2_arg5 L)
-- after C
theorem p4_relu : L4 L (Proc.devRef .tc main_v47)
    = maximumf
        (addf (AGG1 L)
          (broadcastInDim S100000x64 ![0, 1] bcast_S1x64_S100000x64_0_1 (broadcastInDim S1x64 ![1] bcast_S64_S1x64_1 (Y3 L))))
        (broadcastInDim S100000x64 ![] bcast_S_S100000x64 (constant (F := F) S_ .f32 0x00000000#32)) := by
  have h := c_relu (L3 L)
  rw [p3_agg L, p3_arg3 L] at h
  exact h
theorem p4_src : L4 L (Proc.devRef .tc main_v3) = SRC L := (c_keep_v3 (L3 L)).trans (p3_src L)
theorem p4_dst : L4 L (Proc.devRef .tc main_v6) = DST L := (c_keep_v6 (L3 L)).trans (p3_dst L)
theorem p4_arg4 : L4 L (Proc.devRef .tc main_arg4) = Y4 L := (c_keep_arg4 (L3 L)).trans (p3_arg4 L)
theorem p4_arg5 : L4 L (Proc.devRef .tc main_arg5) = Y5 L := (c_keep_arg5 (L3 L)).trans (p3_arg5 L)
-- after D1
theorem p5_dinv : L5 L (Proc.devRef .tc main_v55) = degInv (DST L) := by
  have h := d1_dinv (L4 L)
  rw [p4_dst L] at h
  exact h
theorem p5_src : L5 L (Proc.devRef .tc main_v3) = SRC L := (d1_keep_v3 (L4 L)).trans (p4_src L)
theorem p5_dst : L5 L (Proc.devRef .tc main_v6) = DST L := (d1_keep_v6 (L4 L)).trans (p4_dst L)
theorem p5_relu : L5 L (Proc.devRef .tc main_v47) = L4 L (Proc.devRef .tc main_v47) := d1_keep_v47 (L4 L)
theorem p5_arg4 : L5 L (Proc.devRef .tc main_arg4) = Y4 L := (d1_keep_arg4 (L4 L)).trans (p4_arg4 L)
theorem p5_arg5 : L5 L (Proc.devRef .tc main_arg5) = Y5 L := (d1_keep_arg5 (L4 L)).trans (p4_arg5 L)
-- after D2
theorem p6_norm : L6 L (Proc.devRef .tc main_v70) = NRM L := by
  have h := d2_norm (L5 L)
  rw [p5_dinv L, p5_src L, p5_dst L] at h
  exact h
theorem p6_src : L6 L (Proc.devRef .tc main_v3) = SRC L := (d2_keep_v3 (L5 L)).trans (p5_src L)
theorem p6_dst : L6 L (Proc.devRef .tc main_v6) = DST L := (d2_keep_v6 (L5 L)).trans (p5_dst L)
theorem p6_relu : L6 L (Proc.devRef .tc main_v47) = L4 L (Proc.devRef .tc main_v47) := (d2_keep_v47 (L5 L)).trans (p5_relu L)
theorem p6_arg4 : L6 L (Proc.devRef .tc main_arg4) = Y4 L := (d2_keep_arg4 (L5 L)).trans (p5_arg4 L)
theorem p6_arg5 : L6 L (Proc.devRef .tc main_arg5) = Y5 L := (d2_keep_arg5 (L5 L)).trans (p5_arg5 L)
-- after E
theorem p7_agg : L7 L (Proc.devRef .tc main_v84) = AGG2 L := by
  have h := e_agg (L6 L)
  rw [p6_norm L, p6_src L, p6_dst L, p6_relu L, p4_relu L, p6_arg4 L] at h
  exact h
theorem p7_arg5 : L7 L (Proc.devRef .tc main_arg5) = Y5 L := (e_keep_arg5 (L6 L)).trans (p6_arg5 L)

/-- THE REFERENCE'S RESULT: the fold of all 131 operations, at the result buffer, is the network function of the
    launch contents of the six arguments. -/
theorem result_eq : StableHlo.after (ops (F := F)) L (Proc.devRef .tc main_v88)
    = gcn (Y0 L) (Y1 L) (Y2 L) (Y3 L) (Y4 L) (Y5 L) := by
  rw [after_ops L]
  have h := f_lsm (L7 L)
  rw [p7_agg L, p7_arg5 L] at h
  exact h

end Compose

/-! ## The run -/

set_option maxRecDepth 8192 in
set_option maxHeartbeats 52400000 in
/-- On every device, from any memory with zero counters: every weakly fair execution of the reference's @main
    terminates with the result array at the network function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88)
        = gcn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunValue

end
-- ==== Proof.lean ====
/- The certificate of the two-layer graph convolution: log_softmax (Â · relu (Â · (X · W1) + b1) · W2 + b2), Â the
   symmetrically normalised adjacency with self-loops, applied as "gather the rows at the edges' sources, scale each
   by dinv[src] · dinv[dst], scatter-add at the destinations".
   The kernel's program computes the three dense stages in three pipelined regions of twenty row blocks each (the
   matrix products on truncated operands, which at the exact instance are the operands themselves) and everything else
   by the same host operations as the reference; the reference computes the edge coefficients twice. Over the extended
   reals both results are ONE function of the six argument arrays (Proof/Network.lean `gcn`): a row block of a matrix
   product is the rows of the whole product, a row's log-softmax depends on that row alone, and the maximum of -inf and a
   row maximum is the row maximum. No law that needs finiteness is used, so the precondition is never opened.
   The frames of the two kernel programs are the generated ones; the reference's frame is its run (read back stretch
   by stretch, Proof/RefRunValue.lean) with the result dropped; the idealization rewrote nothing, so `preserves` is trivial. -/
import proofs.«133573_j63677185130713_1_alg».proof.Defs
import proofs.«133573_j63677185130713_1_alg».proof.Proof.Gen.Kernel.Frame
import proofs.«133573_j63677185130713_1_alg».proof.Proof.Gen.KernelIdeal.Frame
import proofs.«133573_j63677185130713_1_alg».proof.Proof.Gen.Pre_finite_inputs
import proofs.«133573_j63677185130713_1_alg».proof.Proof.KernelRun
import proofs.«133573_j63677185130713_1_alg».proof.Proof.KernelValue
import proofs.«133573_j63677185130713_1_alg».proof.Proof.RefRunValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunValue.run (F := Ideal) m ρ)

theorem preserves : Cert.preserves_Kernel_KernelIdeal := trivial

/-- Both idealized programs, from memories that agree on the arguments, end with the network function of the
    arguments in their result arrays. -/
theorem algebraic : Cert.algebraic_KernelIdeal_ReferenceIdeal := by
  intro m ρ m' ρ' _ hagree
  refine ⟨fun c => Cert.Stages.gcn (Cert.KernelIdeal.KernelValue.X0 m c) (Cert.KernelIdeal.KernelValue.X1 m c)
      (Cert.KernelIdeal.KernelValue.X2 m c) (Cert.KernelIdeal.KernelValue.X3 m c) (Cert.KernelIdeal.KernelValue.X4 m c)
      (Cert.KernelIdeal.KernelValue.X5 m c), ?_, ?_⟩
  · exact (θ_run Cert.KernelIdeal.defs _ _).mono
      (fun r h c => ⟨(h c).1.trans (Cert.KernelIdeal.KernelValue.result_eq m ρ c), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.RunValue.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
